-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S192x64 : Shape := ⟨2, ![192, 64]⟩
abbrev S192 : Shape := ⟨1, ![192]⟩
abbrev S256x64 : Shape := ⟨2, ![256, 64]⟩
abbrev S256 : Shape := ⟨1, ![256]⟩
abbrev S12x64 : Shape := ⟨2, ![12, 64]⟩
abbrev S12 : Shape := ⟨1, ![12]⟩
abbrev S1x100000x64 : Shape := ⟨3, ![1, 100000, 64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S12x64 : S_.BroadcastsInDim S12x64 (![] : Fin 0 → Fin S12x64.rank)
  reducesTo_S12x64_S_d0_1 : S12x64.ReducesTo [0, 1] S_
  bcast_S_S12 : S_.BroadcastsInDim S12 (![] : Fin 0 → Fin S12.rank)
  reducesTo_S12_S_d0 : S12.ReducesTo [0] S_
  bcast_S_S1x100000x64 : S_.BroadcastsInDim S1x100000x64 (![] : Fin 0 → Fin S1x100000x64.rank)
  reducesTo_S1x100000x64_S_d0_1_2 : S1x100000x64.ReducesTo [0, 1, 2] S_

variable [Facts]

def fn_part4 {F : FTy → Type} [FloatOps F] (main_arg14 : FVec F S1x100000x64 .f32) (main_v63 : IVec S_ 1) (main_v67 : IVec S_ 1) : IVec S_ 1 :=
  let main_v68 : IVec S_ 1 := andi main_v63 main_v67
  let main_v69 : FVec F S1x100000x64 .f32 := Host.absf main_arg14
  let main_cst_26 : FVec F S_ .f32 := constant S_ .f32 0x7F800000#32
  let main_v70 : FVec F S1x100000x64 .f32 := broadcastInDim S1x100000x64 ![] bcast_S_S1x100000x64 main_cst_26
  let main_v71 : IVec S1x100000x64 1 := cmpf .olt main_v69 main_v70
  let main_c_27 : IVec S_ 1 := constantI S_ 1 1#1
  let main_v72 : IVec S_ 1 := (fun x v => Host.reduce IntOp.andi x v reducesTo_S1x100000x64_S_d0_1_2 h_S_) main_v71 main_c_27
  let main_v73 : IVec S_ 1 := andi main_v68 main_v72
  main_v73

def fn_part3 {F : FTy → Type} [FloatOps F] (main_arg11 : FVec F S12x64 .f32) (main_arg12 : FVec F S12 .f32) (main_arg13 : FVec F S1x100000x64 .f32) (main_arg14 : FVec F S1x100000x64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S12x64 .f32 := Host.absf main_arg11
  let main_cst_20 : FVec F S_ .f32 := constant S_ .f32 0x7F800000#32
  let main_v55 : FVec F S12x64 .f32 := broadcastInDim S12x64 ![] bcast_S_S12x64 main_cst_20
  let main_v56 : IVec S12x64 1 := cmpf .olt main_v54 main_v55
  let main_c_21 : IVec S_ 1 := constantI S_ 1 1#1
  let main_v57 : IVec S_ 1 := (fun x v => Host.reduce IntOp.andi x v reducesTo_S12x64_S_d0_1 h_S_) main_v56 main_c_21
  let main_v58 : IVec S_ 1 := andi main_v53 main_v57
  let main_v59 : FVec F S12 .f32 := Host.absf main_arg12
  let main_cst_22 : FVec F S_ .f32 := constant S_ .f32 0x7F800000#32
  let main_v60 : FVec F S12 .f32 := broadcastInDim S12 ![] bcast_S_S12 main_cst_22
  let main_v61 : IVec S12 1 := cmpf .olt main_v59 main_v60
  let main_c_23 : IVec S_ 1 := constantI S_ 1 1#1
  let main_v62 : IVec S_ 1 := (fun x v => Host.reduce IntOp.andi x v reducesTo_S12_S_d0 h_S_) main_v61 main_c_23
  let main_v63 : IVec S_ 1 := andi main_v58 main_v62
  let main_v64 : FVec F S1x100000x64 .f32 := Host.absf main_arg13
  let main_cst_24 : FVec F S_ .f32 := constant S_ .f32 0x7F800000#32
  let main_v65 : FVec F S1x100000x64 .f32 := broadcastInDim S1x100000x64 ![] bcast_S_S1x100000x64 main_cst_24
  let main_v66 : IVec S1x100000x64 1 := cmpf .olt main_v64 main_v65
  let main_c_25 : IVec S_ 1 := constantI S_ 1 1#1
  let main_v67 : IVec S_ 1 := (fun x v => Host.reduce IntOp.andi x v reducesTo_S1x100000x64_S_d0_1_2 h_S_) main_v66 main_c_25
  fn_part4 (F := F) main_arg14 main_v63 main_v67

def fn_part2 {F : FTy → Type} [FloatOps F] (main_arg7 : FVec F S256x64 .f32) (main_arg8 : FVec F S256x64 .f32) (main_arg9 : FVec F S256 .f32) (main_arg10 : FVec F S256 .f32) (main_arg11 : FVec F S12x64 .f32) (main_arg12 : FVec F S12 .f32) (main_arg13 : FVec F S1x100000x64 .f32) (main_arg14 : FVec F S1x100000x64 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256x64 .f32 := Host.absf main_arg8
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S192x64 .f32) (main_arg5 : FVec F S192 .f32) (main_arg6 : FVec F S192 .f32) (main_arg7 : FVec F S256x64 .f32) (main_arg8 : FVec F S256x64 .f32) (main_arg9 : FVec F S256 .f32) (main_arg10 : FVec F S256 .f32) (main_arg11 : FVec F S12x64 .f32) (main_arg12 : FVec F S12 .f32) (main_arg13 : FVec F S1x100000x64 .f32) (main_arg14 : FVec F S1x100000x64 .f32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192 .f32 := Host.absf main_arg5
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192 .f32 := Host.absf main_arg6
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x64 .f32) (main_arg1 : FVec F S1600000 .f32) (main_arg2 : FVec F S64x64 .f32) (main_arg3 : FVec F S192x64 .f32) (main_arg4 : FVec F S192x64 .f32) (main_arg5 : FVec F S192 .f32) (main_arg6 : FVec F S192 .f32) (main_arg7 : FVec F S256x64 .f32) (main_arg8 : FVec F S256x64 .f32) (main_arg9 : FVec F S256 .f32) (main_arg10 : FVec F S256 .f32) (main_arg11 : FVec F S12x64 .f32) (main_arg12 : FVec F S12 .f32) (main_arg13 : FVec F S1x100000x64 .f32) (main_arg14 : FVec F S1x100000x64 .f32) (main_arg15 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S192x64 .f32 := Host.absf main_arg3
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S192x64 : Shape := ⟨2, ![192, 64]⟩
abbrev S192 : Shape := ⟨1, ![192]⟩
abbrev S256x64 : Shape := ⟨2, ![256, 64]⟩
abbrev S256 : Shape := ⟨1, ![256]⟩
abbrev S12x64 : Shape := ⟨2, ![12, 64]⟩
abbrev S12 : Shape := ⟨1, ![12]⟩
abbrev S1x100000x64 : Shape := ⟨3, ![1, 100000, 64]⟩
abbrev S2x1600000 : Shape := ⟨2, ![2, 1600000]⟩
abbrev S1x1600000 : Shape := ⟨2, ![1, 1600000]⟩
abbrev S2000x64 : Shape := ⟨2, ![2000, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x192 : Shape := ⟨2, ![64, 192]⟩
abbrev S64x256 : Shape := ⟨2, ![64, 256]⟩
abbrev S64x12 : Shape := ⟨2, ![64, 12]⟩
abbrev S1x192 : Shape := ⟨2, ![1, 192]⟩
abbrev S1x256 : Shape := ⟨2, ![1, 256]⟩
abbrev S1x12 : Shape := ⟨2, ![1, 12]⟩
abbrev S100000x12 : Shape := ⟨2, ![100000, 12]⟩
abbrev S2000x12 : Shape := ⟨2, ![2000, 12]⟩
abbrev S2000x192 : Shape := ⟨2, ![2000, 192]⟩
abbrev S2000x256 : Shape := ⟨2, ![2000, 256]⟩

abbrev nBuf : Space → Nat
  | .hbm => 67
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S256x64, .f32⟩
  | .hbm, ⟨8, _⟩ => ⟨S256x64, .f32⟩
  | .hbm, ⟨9, _⟩ => ⟨S256, .f32⟩
  | .hbm, ⟨10, _⟩ => ⟨S256, .f32⟩
  | .hbm, ⟨11, _⟩ => ⟨S12x64, .f32⟩
  | .hbm, ⟨12, _⟩ => ⟨S12, .f32⟩
  | .hbm, ⟨13, _⟩ => ⟨S1x100000x64, .f32⟩
  | .hbm, ⟨14, _⟩ => ⟨S1x100000x64, .f32⟩
  | .hbm, ⟨15, _⟩ => ⟨S2x1600000, .i32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S100000x64, .bf16⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .bf16⟩
  | .hbm, ⟨30, _⟩ => ⟨S1600000x64, .f32⟩
  | .hbm, ⟨31, _⟩ => ⟨S1600000x1, .f32⟩
  | .hbm, ⟨32, _⟩ => ⟨S1600000x64, .f32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S_, .f32⟩
  | .hbm, ⟨39, _⟩ => ⟨S1600000, .f32⟩
  | .hbm, ⟨40, _⟩ => ⟨S_, .f32⟩
  | .hbm, ⟨41, _⟩ => ⟨S100000, .f32⟩
  | .hbm, ⟨42, _⟩ => ⟨S1600000x1, .i32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S64x192, .f32⟩
  | .hbm, ⟨53, _⟩ => ⟨S64x192, .f32⟩
  | .hbm, ⟨54, _⟩ => ⟨S64x256, .f32⟩
  | .hbm, ⟨55, _⟩ => ⟨S64x256, .f32⟩
  | .hbm, ⟨56, _⟩ => ⟨S64x12, .f32⟩
  | .hbm, ⟨57, _⟩ => ⟨S1x192, .f32⟩
  | .hbm, ⟨58, _⟩ => ⟨S1x192, .f32⟩
  | .hbm, ⟨59, _⟩ => ⟨S1x256, .f32⟩
  | .hbm, ⟨60, _⟩ => ⟨S1x256, .f32⟩
  | .hbm, ⟨61, _⟩ => ⟨S1x12, .f32⟩
  | .hbm, ⟨62, _⟩ => ⟨S100000x12, .f32⟩
  | .hbm, ⟨63, _⟩ => ⟨S100000x64, .f32⟩
  | .hbm, ⟨64, _⟩ => ⟨S100000x64, .f32⟩
  | .hbm, ⟨65, _⟩ => ⟨S1x100000x64, .f32⟩
  | .hbm, ⟨66, _⟩ => ⟨S1x100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .bf16⟩
  | .local _ .vmem, ⟨4, _⟩ => ⟨S2000x64, .bf16⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x192, .f32⟩
  | .local _ .vmem, ⟨14, _⟩ => ⟨S64x192, .f32⟩
  | .local _ .vmem, ⟨15, _⟩ => ⟨S1x192, .f32⟩
  | .local _ .vmem, ⟨16, _⟩ => ⟨S1x192, .f32⟩
  | .local _ .vmem, ⟨17, _⟩ => ⟨S64x256, .f32⟩
  | .local _ .vmem, ⟨18, _⟩ => ⟨S64x256, .f32⟩
  | .local _ .vmem, ⟨19, _⟩ => ⟨S1x256, .f32⟩
  | .local _ .vmem, ⟨20, _⟩ => ⟨S1x256, .f32⟩
  | .local _ .vmem, ⟨21, _⟩ => ⟨S64x12, .f32⟩
  | .local _ .vmem, ⟨22, _⟩ => ⟨S1x12, .f32⟩
  | .local _ .vmem, ⟨23, _⟩ => ⟨S2000x12, .f32⟩
  | .local _ .vmem, ⟨24, _⟩ => ⟨S2000x12, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev main_v40_2 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg14_1 : Ref sig .tc := ⟨.vmem, 24, rfl⟩
abbrev cc1_stg15_0 : Ref sig .tc := ⟨.vmem, 25, rfl⟩
abbrev cc1_stg15_1 : Ref sig .tc := ⟨.vmem, 26, rfl⟩
abbrev cc1_stg16_0 : Ref sig .tc := ⟨.vmem, 27, rfl⟩
abbrev cc1_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem14_1 : DmaSem sig := 24
abbrev cc1_sem15_0 : DmaSem sig := 25
abbrev cc1_sem15_1 : DmaSem sig := 26
abbrev cc1_sem16_0 : DmaSem sig := 27
abbrev cc1_sem16_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x12 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x12 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2000x12 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S2000x64 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S2000x64 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S2000x64_S2000x64_0_0 : (Rect.unit (s := S2000x64) ![0, 0] S2000x64.size inb_S2000x64_S2000x64_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S1x100000x64_S100000x64 : S1x100000x64.ShapeCasts S100000x64
  transposes_S192x64_S64x192_1_0 : S192x64.Transposes [1, 0] S64x192
  transposes_S256x64_S64x256_1_0 : S256x64.Transposes [1, 0] S64x256
  transposes_S12x64_S64x12_1_0 : S12x64.Transposes [1, 0] S64x12
  shapeCasts_S192_S1x192 : S192.ShapeCasts S1x192
  shapeCasts_S256_S1x256 : S256.ShapeCasts S1x256
  shapeCasts_S12_S1x12 : S12.ShapeCasts S1x12
  shapeCasts_S2000x64_S2000x64 : S2000x64.ShapeCasts S2000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x64 : S2000x256.Slices ![0, 0] S2000x64
  slices_S2000x256_o0_64_S2000x64 : S2000x256.Slices ![0, 64] S2000x64
  slices_S2000x256_o0_128_S2000x64 : S2000x256.Slices ![0, 128] S2000x64
  slices_S2000x256_o0_192_S2000x64 : S2000x256.Slices ![0, 192] S2000x64
  inb_S64x12_S64x12_0_0 : ∀ a, (![0, 0] : Fin 2 → Nat) a + S64x12.size a ≤ S64x12.size a
  h_S64x12 : 0 < S64x12.numel
  shapeCasts_S64x12_S64x12 : S64x12.ShapeCasts S64x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S2000x12 : S1x12.Broadcasts S2000x12
  inb_S2000x12_S2000x12_0_0 : ∀ a, (![0, 0] : Fin 2 → Nat) a + S2000x12.size a ≤ S2000x12.size a
  h_S2000x12 : 0 < S2000x12.numel
  bcast_S100000x64_S1x100000x64_1_2 : S100000x64.BroadcastsInDim S1x100000x64 (![1, 2] : Fin 2 → Fin S1x100000x64.rank)
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S2000x64_S64x192_S2000x192_1_0_0_1_n_n_wf : DotDims.WF S2000x64 S64x192 S2000x192 [1] [0] [0] [1] [] []
  dot_S2000x64_S64x256_S2000x256_1_0_0_1_n_n_wf : DotDims.WF S2000x64 S64x256 S2000x256 [1] [0] [0] [1] [] []
  dot_S2000x64_S64x12_S2000x12_1_0_0_1_n_n_wf : DotDims.WF S2000x64 S64x12 S2000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .bf16 = 32 ∨ (Rect.block (s := S100000x64) S2000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x192.size a ≤ S64x192.size a
  hwx1_4 : ∀ i : grid1.Coords, EltTy.bits .f32 = 32 ∨ (Rect.block (s := S64x192) S64x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x192.size a ≤ S64x192.size a
  hwx1_5 : ∀ i : grid1.Coords, EltTy.bits .f32 = 32 ∨ (Rect.block (s := S64x192) S64x192.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x192.size a ≤ S1x192.size a
  hwx1_6 : ∀ i : grid1.Coords, EltTy.bits .f32 = 32 ∨ (Rect.block (s := S1x192) S1x192.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x192.size a ≤ S1x192.size a
  hwx1_7 : ∀ i : grid1.Coords, EltTy.bits .f32 = 32 ∨ (Rect.block (s := S1x192) S1x192.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x256.size a ≤ S64x256.size a
  hwx1_8 : ∀ i : grid1.Coords, EltTy.bits .f32 = 32 ∨ (Rect.block (s := S64x256) S64x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x256.size a ≤ S64x256.size a
  hwx1_9 : ∀ i : grid1.Coords, EltTy.bits .f32 = 32 ∨ (Rect.block (s := S64x256) S64x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x12.size a ≤ S64x12.size a
  hwx1_12 : ∀ i : grid1.Coords, EltTy.bits .f32 = 32 ∨ (Rect.block (s := S64x12) S64x12.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x12.size a ≤ S1x12.size a
  hwx1_13 : ∀ i : grid1.Coords, EltTy.bits .f32 = 32 ∨ (Rect.block (s := S1x12) S1x12.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S2000x12.size a ≤ S100000x12.size a
  hwx1_14 : ∀ i : grid1.Coords, EltTy.bits .f32 = 32 ∨ (Rect.block (s := S100000x12) S2000x12.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S2000x64.size a ≤ S100000x64.size a
  hwx1_15 : ∀ i : grid1.Coords, EltTy.bits .f32 = 32 ∨ (Rect.block (s := S100000x64) S2000x64.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S2000x64.size a ≤ S100000x64.size a
  hwx1_16 : ∀ i : grid1.Coords, EltTy.bits .f32 = 32 ∨ (Rect.block (s := S100000x64) S2000x64.size (cc1_transform_16 i) (hinb1_16 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x64_S64x12_S2000x12_1_0_0_1_n_n : DotDims S2000x64 S64x12 S2000x12 where
  lhsContracting := [1]
  rhsContracting := [0]
  lhsNonContracting := [0]
  rhsNonContracting := [1]
  lhsBatch := []
  rhsBatch := []
  wf := dot_S2000x64_S64x12_S2000x12_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S64x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S64x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x192.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x192.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S64x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S64x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v38) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v34) S64x12.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v39) S1x12.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v40_0) S2000x12.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v40_1) S2000x64.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v40_2) S2000x64.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S192x64 : Shape := ⟨2, ![192, 64]⟩
abbrev S192 : Shape := ⟨1, ![192]⟩
abbrev S256x64 : Shape := ⟨2, ![256, 64]⟩
abbrev S256 : Shape := ⟨1, ![256]⟩
abbrev S12x64 : Shape := ⟨2, ![12, 64]⟩
abbrev S12 : Shape := ⟨1, ![12]⟩
abbrev S1x100000x64 : Shape := ⟨3, ![1, 100000, 64]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x192 : Shape := ⟨2, ![64, 192]⟩
abbrev S100000x192 : Shape := ⟨2, ![100000, 192]⟩
abbrev S1x192 : Shape := ⟨2, ![1, 192]⟩
abbrev S64x256 : Shape := ⟨2, ![64, 256]⟩
abbrev S100000x256 : Shape := ⟨2, ![100000, 256]⟩
abbrev S1x256 : Shape := ⟨2, ![1, 256]⟩
abbrev S64x12 : Shape := ⟨2, ![64, 12]⟩
abbrev S100000x12 : Shape := ⟨2, ![100000, 12]⟩
abbrev S1x12 : Shape := ⟨2, ![1, 12]⟩

abbrev nBuf : Space → Nat
  | .hbm => 149
  | .vmem => 0
  | .smem => 0
  | _ => 0

abbrev hbmTy0_0 (i : Nat) : BufTy := match i % 128 with
  | 0 => ⟨S100000x64, .f32⟩
  | 1 => ⟨S1600000, .f32⟩
  | 2 => ⟨S64x64, .f32⟩
  | 3 => ⟨S192x64, .f32⟩
  | 4 => ⟨S192x64, .f32⟩
  | 5 => ⟨S192, .f32⟩
  | 6 => ⟨S192, .f32⟩
  | 7 => ⟨S256x64, .f32⟩
  | 8 => ⟨S256x64, .f32⟩
  | 9 => ⟨S256, .f32⟩
  | 10 => ⟨S256, .f32⟩
  | 11 => ⟨S12x64, .f32⟩
  | 12 => ⟨S12, .f32⟩
  | 13 => ⟨S1x100000x64, .f32⟩
  | 14 => ⟨S1x100000x64, .f32⟩
  | 15 => ⟨S2x1600000, .i32⟩
  | 16 => ⟨S1x1600000, .i32⟩
  | 17 => ⟨S1600000, .i32⟩
  | 18 => ⟨S1x1600000, .i32⟩
  | 19 => ⟨S1600000, .i32⟩
  | 20 => ⟨S100000x64, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S1600000x1, .f32⟩
  | 31 => ⟨S1600000x64, .f32⟩
  | 32 => ⟨S1600000x64, .f32⟩
  | 33 => ⟨S_, .f32⟩
  | 34 => ⟨S100000x64, .f32⟩
  | 35 => ⟨S1600000x1, .i32⟩
  | 36 => ⟨S100000x64, .f32⟩
  | 37 => ⟨S_, .f32⟩
  | 38 => ⟨S1600000, .f32⟩
  | 39 => ⟨S_, .f32⟩
  | 40 => ⟨S100000, .f32⟩
  | 41 => ⟨S1600000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x64, .f32⟩
  | 48 => ⟨S100000x64, .f32⟩
  | 49 => ⟨S64x192, .f32⟩
  | 50 => ⟨S100000x192, .f32⟩
  | 51 => ⟨S1x192, .f32⟩
  | 52 => ⟨S100000x192, .f32⟩
  | 53 => ⟨S100000x192, .f32⟩
  | 54 => ⟨S64x192, .f32⟩
  | 55 => ⟨S100000x192, .f32⟩
  | 56 => ⟨S1x192, .f32⟩
  | 57 => ⟨S100000x192, .f32⟩
  | 58 => ⟨S100000x192, .f32⟩
  | 59 => ⟨S100000x64, .f32⟩
  | 60 => ⟨S100000x64, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S64x256, .f32⟩
  | 95 => ⟨S100000x256, .f32⟩
  | 96 => ⟨S1x256, .f32⟩
  | 97 => ⟨S100000x256, .f32⟩
  | 98 => ⟨S100000x256, .f32⟩
  | 99 => ⟨S64x256, .f32⟩
  | 100 => ⟨S100000x256, .f32⟩
  | 101 => ⟨S100000x256, .f32⟩
  | 102 => ⟨S1x256, .f32⟩
  | 103 => ⟨S100000x256, .f32⟩
  | 104 => ⟨S100000x256, .f32⟩
  | 105 => ⟨S100000x64, .f32⟩
  | 106 => ⟨S100000x64, .f32⟩
  | 107 => ⟨S100000x64, .f32⟩
  | 108 => ⟨S100000x64, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S64x12, .f32⟩
  | 15 => ⟨S100000x12, .f32⟩
  | 16 => ⟨S1x12, .f32⟩
  | 17 => ⟨S100000x12, .f32⟩
  | 18 => ⟨S100000x12, .f32⟩
  | 19 => ⟨S1x100000x64, .f32⟩
  | 20 => ⟨S1x100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_9 : Ref sig .tc := ⟨.hbm, 111, rfl⟩
abbrev main_v84 : Ref sig .tc := ⟨.hbm, 112, rfl⟩
abbrev main_v85 : Ref sig .tc := ⟨.hbm, 113, rfl⟩
abbrev main_cst_10 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_11 : Ref sig .tc := ⟨.hbm, 120, rfl⟩
abbrev main_v91 : Ref sig .tc := ⟨.hbm, 121, rfl⟩
abbrev main_v92 : Ref sig .tc := ⟨.hbm, 122, rfl⟩
abbrev main_cst_12 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_13 : Ref sig .tc := ⟨.hbm, 131, rfl⟩
abbrev main_v100 : Ref sig .tc := ⟨.hbm, 132, rfl⟩
abbrev main_v101 : Ref sig .tc := ⟨.hbm, 133, rfl⟩
abbrev main_cst_14 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_call0_cst : Ref sig .tc := ⟨.hbm, 139, rfl⟩
abbrev main_call0_v0 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  shapeCasts_S1x100000x64_S100000x64 : S1x100000x64.ShapeCasts S100000x64
  transposes_S256x64_S64x256_1_0 : S256x64.Transposes [1, 0] S64x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S100000x256_S100000x64_0_0 : S100000x256.Slices ![0, 0] S100000x64
  slices_S100000x256_S100000x64_0_64 : S100000x256.Slices ![0, 64] S100000x64
  slices_S100000x256_S100000x64_0_128 : S100000x256.Slices ![0, 128] S100000x64
  slices_S100000x256_S100000x64_0_192 : S100000x256.Slices ![0, 192] S100000x64
  transposes_S12x64_S64x12_1_0 : S12x64.Transposes [1, 0] S64x12
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  bcast_S100000x64_S1x100000x64_1_2 : S100000x64.BroadcastsInDim S1x100000x64 (![1, 2] : Fin 2 → Fin S1x100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x192_S100000x192_1_0_0_1_n_n_wf : DotDims.WF S100000x64 S64x192 S100000x192 [1] [0] [0] [1] [] []
  dot_S100000x64_S64x256_S100000x256_1_0_0_1_n_n_wf : DotDims.WF S100000x64 S64x256 S100000x256 [1] [0] [0] [1] [] []
  dot_S100000x64_S64x12_S100000x12_1_0_0_1_n_n_wf : DotDims.WF S100000x64 S64x12 S100000x12 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x64_S64x12_S100000x12_1_0_0_1_n_n : DotDims S100000x64 S64x12 S100000x12 where
  lhsContracting := [1]
  rhsContracting := [0]
  lhsNonContracting := [0]
  rhsNonContracting := [1]
  lhsBatch := []
  rhsBatch := []
  wf := dot_S100000x64_S64x12_S100000x12_1_0_0_1_n_n_wf

class Facts : Prop extends Facts₀ where

variable [Facts]
-- ==== Proof.Mid.lean ====
/-
  The edge stretch both programs share, as one function: from the projected node features M, the edge weights and the
  edge list, the mean over each node's incoming edges of (M at the edge's source) · (the edge's weight) — the sum of the
  weighted rows scattered by destination, divided by max(the number of incoming edges, 1). A negative source index is
  first wrapped by the node count. It is never opened: the two programs apply it to equal arguments.
-/
import proofs.«162048_j1778116460895_1_alg».proof.Proof.Gen.KernelIdeal

noncomputable section

open Idealize.ShloMosaic Idealize.ShloMosaic.TcCoe

namespace Cert.KernelIdeal.Mid

open Cert.KernelIdeal Cert.KernelIdeal.Facts₀ Cert.KernelIdeal.Facts

variable {F : FTy → Type} [FloatOps F]

/-- The edge list's row `r` (0: sources, 1: destinations) as a flat array. -/
def srcRow (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000
def dstRow (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The source indices with a negative index wrapped by the node count, as a column of start indices. -/
def srcIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The scatter-mean of the weighted gathered rows `G` ([edges, 64], already gathered) by destination. -/
def meanBy (G : (⟨S1600000x64, .f32⟩ : BufTy).Contents (Elt F)) (ew : (⟨S1600000, .f32⟩ : BufTy).Contents (Elt F))
    (dst : (⟨S1600000, .i32⟩ : BufTy).Contents (Elt F)) : (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (mulf G (broadcastInDim S1600000x64 ![0, 1] bcast_S1600000x1_S1600000x64_0_1
        (broadcastInDim S1600000x1 ![0] bcast_S1600000_S1600000x1_0 ew))))
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- The whole stretch on projected features `M` held as binary32 values. -/
def mid (M : (⟨S100000x64, .f32⟩ : BufTy).Contents (Elt F)) (ew : (⟨S1600000, .f32⟩ : BufTy).Contents (Elt F))
    (ei : (⟨S2x1600000, .i32⟩ : BufTy).Contents (Elt F)) : (⟨S100000x64, .f32⟩ : BufTy).Contents (Elt F) :=
  meanBy (Host.gather gather_S100000x64_S1600000x1_S1600000x64_1_0_n_n_0_1_164 M (srcIdx (srcRow ei))) ew (dstRow ei)

end Cert.KernelIdeal.Mid

end
-- ==== Proof.KerHost.lean ====
/-
  The host stretches of the kernel program, read: what each region finds in the arrays of its windows, and what the last
  stretch leaves in the result buffers, as terms of the launch memory and of the regions' output arrays.
-/
import proofs.«162048_j1778116460895_1_alg».proof.Proof.Gen.KernelIdeal.Frame
import proofs.«162048_j1778116460895_1_alg».proof.Proof.Mid
import Idealize.ShloMosaic.Lib.StableHlo.Run
import Idealize.ShloMosaic.PureOps.Ideal

set_option maxRecDepth 16384

noncomputable section

open Idealize.ShloMosaic Idealize.ShloMosaic.TcCoe Idealize.SL.Sem

namespace Cert.KernelIdeal.HostValue

open Cert.KernelIdeal Cert.KernelIdeal.Gen Cert.KernelIdeal.Mid

variable (m : (ℓ : Loc nD τ sig) → Buf (Elt Ideal) ℓ) (ρ : Dev nD → PrngReg) (c : Dev nD)

/-- A buffer that no operation of a stretch writes holds after the stretch what it held before: the side condition,
    one inequality of references per operation. -/
local macro "unwritten" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The walk back to the launch memory

The first stretch writes only the four buffers of the edge list's two rows; region 0 writes only its output array. Any
other buffer holds at region 0's entry, and at its exit, what the launch put there. -/

/-- At region 0's entry a buffer the first stretch does not write is as launched. -/
theorem W1_of_ne (b : Ref sig .tc) (h0 : b ≠ main_v0) (h1 : b ≠ main_v1) (h2 : b ≠ main_v2) (h3 : b ≠ main_v3) :
    W1 m ρ c (Proc.devRef .tc b) = m ((c : Thread nD τ).loc b) := by
  refine (StableHlo.after_of_forall_not_mem (b := Proc.devRef .tc b) _ _ (List.forall_iff_forall_mem.mp ?_)).trans rfl
  simp only [hostOps0, List.Forall, StableHlo.unary_writes, StableHlo.reshape_writes, Finset.mem_singleton]
  exact ⟨StableHlo.devRef_ne_of_ne h0, StableHlo.devRef_ne_of_ne h1, StableHlo.devRef_ne_of_ne h2, StableHlo.devRef_ne_of_ne h3⟩

/-- At region 0's exit a buffer that is no window of region 0 and that the first stretch does not write is as launched. -/
theorem W2_of_arg (b : Ref sig .tc) (hw : ∀ w, Pipeline.arrRef spec0 w ≠ b)
    (h0 : b ≠ main_v0) (h1 : b ≠ main_v1) (h2 : b ≠ main_v2) (h3 : b ≠ main_v3) :
    W2 m ρ c (Proc.devRef .tc b) = m ((c : Thread nD τ).loc b) :=
  (W2_of_ne m ρ c b hw).trans (W1_of_ne m ρ c b h0 h1 h2 h3)

/-- Region 0 reads its first input window's array and leaves it as entered. -/
theorem W2_arg0 : W2 m ρ c (Proc.devRef .tc main_arg0) = m ((c : Thread nD τ).loc main_arg0) :=
  calc W2 m ρ c (Proc.devRef .tc main_arg0)
    _ = W1 m ρ c (Proc.devRef .tc main_arg0) :=
        (W2_arr m ρ c 0).trans (((dat0 (V1 m ρ) c).arrAt_in 0 rfl _).trans (A_eq0 (V1 m ρ) c 0))
    _ = m ((c : Thread nD τ).loc main_arg0) :=
        W1_of_ne m ρ c main_arg0 (by decide) (by decide) (by decide) (by decide)

/-! ## Region 0's entry: the two arguments it reads are as launched -/

theorem V1_arg0 : V1 m ρ c main_arg0 = m ((c : Thread nD τ).loc main_arg0) :=
  W1_of_ne m ρ c main_arg0 (by decide) (by decide) (by decide) (by decide)
theorem V1_arg2 : V1 m ρ c main_arg2 = m ((c : Thread nD τ).loc main_arg2) :=
  W1_of_ne m ρ c main_arg2 (by decide) (by decide) (by decide) (by decide)

/-! ## Region 0's exit: its output array is what its write-backs leave -/

theorem V2_v4 : V2 m ρ c main_v4 = (dat0 (V1 m ρ) c).arrAt 2 cfg0.N := W2_arr m ρ c 2

/-! ## Region 1's entry -/

/-! ### The edge list's two rows at region 0's exit

The first stretch slices and flattens the edge list; region 0 and the earlier operations of the second stretch leave the
two rows alone. -/

theorem W2_v1 : W2 m ρ c (Proc.devRef .tc main_v1) = srcRow (m ((c : Thread nD τ).loc main_arg15)) := by
  rw [W2_of_ne m ρ c main_v1 (by decide)]
  show StableHlo.after hostOps0 (W0 m ρ c) (Proc.devRef .tc main_v1) = _
  after_results
  rfl
theorem W2_v3 : W2 m ρ c (Proc.devRef .tc main_v3) = dstRow (m ((c : Thread nD τ).loc main_arg15)) := by
  rw [W2_of_ne m ρ c main_v3 (by decide)]
  show StableHlo.after hostOps0 (W0 m ρ c) (Proc.devRef .tc main_v3) = _
  after_results
  rfl

/-- Widening the gathered rows from the narrow format is nothing over the extended reals. -/
theorem extf_gather (M : FVec Ideal S100000x64 .bf16) (i : IVec S1600000x1 32) :
    extf (F := Ideal) .f32 (Host.gather Cert.KernelIdeal.gather_S100000x64_S1600000x1_S1600000x64_1_0_n_n_0_1_164 M i : FVec Ideal S1600000x64 .bf16) Facts₀.bitsLt_bf16_f32
      = (Host.gather Cert.KernelIdeal.gather_S100000x64_S1600000x1_S1600000x64_1_0_n_n_0_1_164 (M : FVec Ideal S100000x64 .f32) i : FVec Ideal S1600000x64 .f32) := rfl

/-- The aggregated messages are the shared edge stretch of region 0's output, the edge weights and the edge list. -/
theorem V3_v27 : V3 m ρ c main_v27 = mid (V2 m ρ c main_v4) (m ((c : Thread nD τ).loc main_arg1)) (m ((c : Thread nD τ).loc main_arg15)) := by
  show StableHlo.after hostOps1 (W2 m ρ c) (Proc.devRef .tc main_v27)
    = mid (W2 m ρ c (Proc.devRef .tc main_v4)) (m ((c : Thread nD τ).loc main_arg1)) (m ((c : Thread nD τ).loc main_arg15))
  after_results_simp
  rw [W2_v1 m ρ c, W2_v3 m ρ c, W2_of_arg m ρ c main_arg1 (by decide) (by decide) (by decide) (by decide) (by decide)]
  generalize W2 m ρ c (Proc.devRef .tc main_v4) = M
  unfold mid meanBy srcIdx
  rw [extf_gather]
theorem V3_arg0 : V3 m ρ c main_arg0 = m ((c : Thread nD τ).loc main_arg0) :=
  calc V3 m ρ c main_arg0
    _ = W2 m ρ c (Proc.devRef .tc main_arg0) := by unwritten
    _ = m ((c : Thread nD τ).loc main_arg0) := W2_arg0 m ρ c
theorem V3_v28 : V3 m ρ c main_v28 = shapeCast _ (m ((c : Thread nD τ).loc main_arg13)) Facts₀.shapeCasts_S1x100000x64_S100000x64 := by
  show StableHlo.after hostOps1 (W2 m ρ c) (Proc.devRef .tc main_v28) = _
  after_results
  rw [W2_of_arg m ρ c main_arg13 (by decide) (by decide) (by decide) (by decide) (by decide)]
  rfl
theorem V3_v29 : V3 m ρ c main_v29 = shapeCast _ (m ((c : Thread nD τ).loc main_arg14)) Facts₀.shapeCasts_S1x100000x64_S100000x64 := by
  show StableHlo.after hostOps1 (W2 m ρ c) (Proc.devRef .tc main_v29) = _
  after_results
  rw [W2_of_arg m ρ c main_arg14 (by decide) (by decide) (by decide) (by decide) (by decide)]
  rfl
theorem V3_v30 : V3 m ρ c main_v30 = transpose S64x192 [1, 0] (m ((c : Thread nD τ).loc main_arg3)) Facts₀.transposes_S192x64_S64x192_1_0 := by
  show StableHlo.after hostOps1 (W2 m ρ c) (Proc.devRef .tc main_v30) = _
  after_results
  rw [W2_of_arg m ρ c main_arg3 (by decide) (by decide) (by decide) (by decide) (by decide)]
theorem V3_v31 : V3 m ρ c main_v31 = transpose S64x192 [1, 0] (m ((c : Thread nD τ).loc main_arg4)) Facts₀.transposes_S192x64_S64x192_1_0 := by
  show StableHlo.after hostOps1 (W2 m ρ c) (Proc.devRef .tc main_v31) = _
  after_results
  rw [W2_of_arg m ρ c main_arg4 (by decide) (by decide) (by decide) (by decide) (by decide)]
theorem V3_v32 : V3 m ρ c main_v32 = transpose S64x256 [1, 0] (m ((c : Thread nD τ).loc main_arg7)) Facts₀.transposes_S256x64_S64x256_1_0 := by
  show StableHlo.after hostOps1 (W2 m ρ c) (Proc.devRef .tc main_v32) = _
  after_results
  rw [W2_of_arg m ρ c main_arg7 (by decide) (by decide) (by decide) (by decide) (by decide)]
theorem V3_v33 : V3 m ρ c main_v33 = transpose S64x256 [1, 0] (m ((c : Thread nD τ).loc main_arg8)) Facts₀.transposes_S256x64_S64x256_1_0 := by
  show StableHlo.after hostOps1 (W2 m ρ c) (Proc.devRef .tc main_v33) = _
  after_results
  rw [W2_of_arg m ρ c main_arg8 (by decide) (by decide) (by decide) (by decide) (by decide)]
theorem V3_v34 : V3 m ρ c main_v34 = transpose S64x12 [1, 0] (m ((c : Thread nD τ).loc main_arg11)) Facts₀.transposes_S12x64_S64x12_1_0 := by
  show StableHlo.after hostOps1 (W2 m ρ c) (Proc.devRef .tc main_v34) = _
  after_results
  rw [W2_of_arg m ρ c main_arg11 (by decide) (by decide) (by decide) (by decide) (by decide)]
theorem V3_v35 : V3 m ρ c main_v35 = shapeCast _ (m ((c : Thread nD τ).loc main_arg5)) Facts₀.shapeCasts_S192_S1x192 := by
  show StableHlo.after hostOps1 (W2 m ρ c) (Proc.devRef .tc main_v35) = _
  after_results
  rw [W2_of_arg m ρ c main_arg5 (by decide) (by decide) (by decide) (by decide) (by decide)]
  rfl
theorem V3_v36 : V3 m ρ c main_v36 = shapeCast _ (m ((c : Thread nD τ).loc main_arg6)) Facts₀.shapeCasts_S192_S1x192 := by
  show StableHlo.after hostOps1 (W2 m ρ c) (Proc.devRef .tc main_v36) = _
  after_results
  rw [W2_of_arg m ρ c main_arg6 (by decide) (by decide) (by decide) (by decide) (by decide)]
  rfl
theorem V3_v37 : V3 m ρ c main_v37 = shapeCast _ (m ((c : Thread nD τ).loc main_arg9)) Facts₀.shapeCasts_S256_S1x256 := by
  show StableHlo.after hostOps1 (W2 m ρ c) (Proc.devRef .tc main_v37) = _
  after_results
  rw [W2_of_arg m ρ c main_arg9 (by decide) (by decide) (by decide) (by decide) (by decide)]
  rfl
theorem V3_v38 : V3 m ρ c main_v38 = shapeCast _ (m ((c : Thread nD τ).loc main_arg10)) Facts₀.shapeCasts_S256_S1x256 := by
  show StableHlo.after hostOps1 (W2 m ρ c) (Proc.devRef .tc main_v38) = _
  after_results
  rw [W2_of_arg m ρ c main_arg10 (by decide) (by decide) (by decide) (by decide) (by decide)]
  rfl
theorem V3_v39 : V3 m ρ c main_v39 = shapeCast _ (m ((c : Thread nD τ).loc main_arg12)) Facts₀.shapeCasts_S12_S1x12 := by
  show StableHlo.after hostOps1 (W2 m ρ c) (Proc.devRef .tc main_v39) = _
  after_results
  rw [W2_of_arg m ρ c main_arg12 (by decide) (by decide) (by decide) (by decide) (by decide)]
  rfl

/-! ## The results after the last stretch -/

theorem W5_v40_0 : W5 m ρ c (Proc.devRef .tc main_v40_0) = (dat1 (V3 m ρ) c).arrAt 14 cfg1.N :=
  calc W5 m ρ c (Proc.devRef .tc main_v40_0)
    _ = W4 m ρ c (Proc.devRef .tc main_v40_0) := by unwritten
    _ = (dat1 (V3 m ρ) c).arrAt 14 cfg1.N := W4_arr m ρ c 14
theorem W5_v41 : W5 m ρ c (Proc.devRef .tc main_v41)
    = broadcastInDim S1x100000x64 ![1, 2] Facts₀.bcast_S100000x64_S1x100000x64_1_2 ((dat1 (V3 m ρ) c).arrAt 15 cfg1.N : (⟨S100000x64, .f32⟩ : BufTy).Contents (Elt Ideal)) := by
  show StableHlo.after hostOps2 (W4 m ρ c) (Proc.devRef .tc main_v41) = _
  after_results
  rw [show W4 m ρ c (Proc.devRef .tc main_v40_1) = (dat1 (V3 m ρ) c).arrAt 15 cfg1.N from W4_arr m ρ c 15]
theorem W5_v42 : W5 m ρ c (Proc.devRef .tc main_v42)
    = broadcastInDim S1x100000x64 ![1, 2] Facts₀.bcast_S100000x64_S1x100000x64_1_2 ((dat1 (V3 m ρ) c).arrAt 16 cfg1.N : (⟨S100000x64, .f32⟩ : BufTy).Contents (Elt Ideal)) := by
  show StableHlo.after hostOps2 (W4 m ρ c) (Proc.devRef .tc main_v42) = _
  after_results
  rw [show W4 m ρ c (Proc.devRef .tc main_v40_2) = (dat1 (V3 m ρ) c).arrAt 16 cfg1.N from W4_arr m ρ c 16]

end Cert.KernelIdeal.HostValue

end
-- ==== Proof.Spec.lean ====
/-
  The specification, over the extended reals: what one node's update computes from that node's rows.

  A node carries four rows of 64 numbers: its mean-aggregated message `a`, its feature `x`, and its previous LSTM
  state `hp`, `cp`. The weights enter transposed, [64, n], with biases [1, n].
    gi = a·Wih + bih,  gh = x·Whh + bhh                                  (192 numbers each: reset | update | new)
    r = σ(gi₀ + gh₀),  z = σ(gi₁ + gh₁),  n = tanh(gi₂ + r·gh₂),  h̃ = (1 − z)·n + z·x       (the GRU cell)
    g = ((h̃·LWih + lbih) + hp·LWhh) + lbhh                              (256 numbers: input | forget | cell | output)
    c₁ = σ(g₁)·cp + σ(g₀)·tanh(g₂),  h₁ = σ(g₃)·tanh(c₁)                                     (the LSTM cell)
    out = relu(h₁)·LinW + linb                                           (12 numbers)
  with σ(t) = 1 / (1 + e^(−t)), every operation the exact one on the extended reals, the sums finite sums. Both programs
  compute exactly these terms, operand by operand in this order; only how a matrix product and σ are spelt differs.
  The node projection before the aggregation is the plain product x·W.
-/
import Idealize.ShloMosaic.PureOps.Ideal.Laws
import Idealize.ShloMosaic.Lib.ValueIdx

noncomputable section

open scoped BigOperators
open Idealize.ShloMosaic Idealize.ShloMosaic.ValueIdx

namespace Cert.Spec

/-- A matrix of extended reals with `r` rows and `c` columns, indexed as the programs' rank-2 arrays are. -/
abbrev Mat (r c : ℕ) : Type := (⟨2, ![r, c]⟩ : Shape).Idx → EReal

/-- The binary32 word of 1.0, read as an extended real (both programs write the literal 1 this way). -/
abbrev one32 : EReal := Ideal.ofBits .f32 0x3F800000#32
/-- The binary32 word of 0.0, read as an extended real. -/
abbrev zero32 : EReal := Ideal.ofBits .f32 0x00000000#32

/-- The word of 1.0 denotes the number 1. -/
theorem one32_eq : one32 = 1 := by
  simp [Ideal.ofBits, Ideal.ieee, -EReal.coe_mul]; norm_num

/-- The logistic function as a quotient: 1 / (1 + e^(−t)). -/
def sig (t : EReal) : EReal := Ideal.div one32 (one32 + Ideal.exp (-t))

/-- The quotient form is the ideal instance's one logistic operation. -/
theorem sig_eq_logistic (t : EReal) : sig t = Ideal.logistic t := by
  unfold sig Ideal.logistic; rw [one32_eq]

/-- Row `r` of a matrix with 64 columns. -/
def rowOf {R : ℕ} (A : Mat R 64) (r : Fin R) : Fin 64 → EReal := fun k => A (ix2 r k)

/-- An affine map of a row: entry `j` of `v·WT + b`. -/
def lin {n : ℕ} (v : Fin 64 → EReal) (WT : Mat 64 n) (b : Mat 1 n) (j : Fin n) : EReal :=
  (∑ k : Fin 64, v k * WT (ix2 k j)) + b (ix2 0 j)

/-- Entry `j` of the 64-wide slice of `g` that starts at column `o`. -/
def sl {n : ℕ} (o : ℕ) (h : o + 64 ≤ n) (g : Fin n → EReal) (j : Fin 64) : EReal := g ⟨o + j.val, by omega⟩

section Cell
variable (a x hp cp : Fin 64 → EReal) (WihT WhhT : Mat 64 192) (bih bhh : Mat 1 192)
  (LWihT LWhhT : Mat 64 256) (lbih lbhh : Mat 1 256) (LinWT : Mat 64 12) (linb : Mat 1 12)

/-- The GRU cell's new state h̃, entry `j`. -/
def hTilde (j : Fin 64) : EReal :=
  (one32 - sig (sl 64 (by omega) (lin a WihT bih) j + sl 64 (by omega) (lin x WhhT bhh) j))
      * Ideal.tanh (sl 128 (by omega) (lin a WihT bih) j
          + sig (sl 0 (by omega) (lin a WihT bih) j + sl 0 (by omega) (lin x WhhT bhh) j) * sl 128 (by omega) (lin x WhhT bhh) j)
    + sig (sl 64 (by omega) (lin a WihT bih) j + sl 64 (by omega) (lin x WhhT bhh) j) * x j

/-- The LSTM cell's four gate pre-activations, entry `j` of 256. -/
def gates (j : Fin 256) : EReal :=
  (((∑ k : Fin 64, hTilde a x WihT WhhT bih bhh k * LWihT (ix2 k j)) + lbih (ix2 0 j))
      + ∑ k : Fin 64, hp k * LWhhT (ix2 k j))
    + lbhh (ix2 0 j)

/-- The LSTM cell state c₁, entry `j`. -/
def c1 (j : Fin 64) : EReal :=
  sig (sl 64 (by omega) (gates a x hp WihT WhhT bih bhh LWihT LWhhT lbih lbhh) j) * cp j
    + sig (sl 0 (by omega) (gates a x hp WihT WhhT bih bhh LWihT LWhhT lbih lbhh) j)
        * Ideal.tanh (sl 128 (by omega) (gates a x hp WihT WhhT bih bhh LWihT LWhhT lbih lbhh) j)

/-- The LSTM hidden state h₁, entry `j`. -/
def h1 (j : Fin 64) : EReal :=
  sig (sl 192 (by omega) (gates a x hp WihT WhhT bih bhh LWihT LWhhT lbih lbhh) j)
    * Ideal.tanh (c1 a x hp cp WihT WhhT bih bhh LWihT LWhhT lbih lbhh j)

/-- The output head, entry `j` of 12: relu(h₁)·LinW + linb. -/
def out (j : Fin 12) : EReal :=
  (∑ k : Fin 64, max (h1 a x hp cp WihT WhhT bih bhh LWihT LWhhT lbih lbhh k) zero32 * LinWT (ix2 k j)) + linb (ix2 0 j)

end Cell

/-! ## The whole arrays: every node by its own rows -/

section Arrays
variable {R : ℕ} (agg x hp cp : Mat R 64) (WihT WhhT : Mat 64 192) (bih bhh : Mat 1 192)
  (LWihT LWhhT : Mat 64 256) (lbih lbhh : Mat 1 256) (LinWT : Mat 64 12) (linb : Mat 1 12)

/-- The cell state of every node. -/
def C1S : Mat R 64 := fun i =>
  c1 (rowOf agg (i 0)) (rowOf x (i 0)) (rowOf hp (i 0)) (rowOf cp (i 0)) WihT WhhT bih bhh LWihT LWhhT lbih lbhh (i 1)
/-- The hidden state of every node. -/
def H1S : Mat R 64 := fun i =>
  h1 (rowOf agg (i 0)) (rowOf x (i 0)) (rowOf hp (i 0)) (rowOf cp (i 0)) WihT WhhT bih bhh LWihT LWhhT lbih lbhh (i 1)
/-- The output of every node. -/
def OutS : Mat R 12 := fun i =>
  out (rowOf agg (i 0)) (rowOf x (i 0)) (rowOf hp (i 0)) (rowOf cp (i 0)) WihT WhhT bih bhh LWihT LWhhT lbih lbhh LinWT linb (i 1)

end Arrays

/-- The node projection: the plain matrix product x·W. -/
def convS {R : ℕ} (x : Mat R 64) (W : Mat 64 64) : Mat R 64 := fun i => ∑ k : Fin 64, x (ix2 (i 0) k) * W (ix2 k (i 1))

end Cert.Spec

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KerCell.lean ====
/-
  The kernel bodies' arithmetic, read at one entry of a block.

  Each body is a chain of pointwise operations, column slices, row broadcasts and products with a [64, n] matrix
  accumulated into zero. Read at entry (p, q) of a 2000-row block over the extended reals, a product is the finite sum
  ∑ k, A (p, k) · B (k, q), a slice from column o reads column o + q, a broadcast bias reads its one row, and the
  roundings between operations are the identity; so each named value of the update body is, entry by entry, the
  specification's term of row p: the two affine maps, the GRU gates z, n, 1 − z, the LSTM gate pre-activations, c₁, h₁
  and the output head.
-/
import proofs.«162048_j1778116460895_1_alg».proof.Proof.Gen.KernelIdeal.Skeleton
import proofs.«162048_j1778116460895_1_alg».proof.Proof.Spec
import proofs.«162048_j1778116460895_1_alg».proof.Proof.LibPlainMatmul
import Idealize.ShloMosaic.Lib.Pipeline.Value
import Idealize.ShloMosaic.Lib.ValueLayout

noncomputable section

open scoped BigOperators
open Idealize.ShloMosaic Idealize.ShloMosaic.ValueIdx

namespace Cert.KernelIdeal.CellValue

open Cert.KernelIdeal Cert.KernelIdeal.Gen Cert.Spec

/-! ## The four product records: each contracts the left operand's columns against the right operand's rows -/

theorem d64_l0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem d64_l1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem d64_r0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem d64_r1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product of a 2000-row block with a [64, 64] matrix, accumulated into zero, at entry (p, o). -/
theorem mm64 (A : FVec Ideal S2000x64 .bf16) (B : FVec Ideal S64x64 .bf16) (p : Fin 2000) (o : Fin 64) :
    matmul dot_S2000x64_S64x64_S2000x64_1_0_0_1_n_n none A B (constant (F := Ideal) S2000x64 .f32 0x00000000#32) (ix2 p o)
      = ∑ k : Fin 64, A (ix2 p k) * B (ix2 k o) :=
  Cert.LibPlainMatmul.matmul_zero_apply dot_S2000x64_S64x64_S2000x64_1_0_0_1_n_n none rfl rfl d64_l0 d64_l1 d64_r0 d64_r1 A B p o

theorem d192_l0 (i : S2000x192.Idx) (q : dot_S2000x64_S64x192_S2000x192_1_0_0_1_n_n.contr.Idx) :
    (dot_S2000x64_S64x192_S2000x192_1_0_0_1_n_n.lhsIdx i q 0).val = (i 0).val := by
  unfold DotDims.lhsIdx
  rw [dif_neg (show ¬(0 : Fin S2000x64.rank) ∈ dot_S2000x64_S64x192_S2000x192_1_0_0_1_n_n.lhsBatch by decide), dif_pos (show (0 : Fin S2000x64.rank) ∈ dot_S2000x64_S64x192_S2000x192_1_0_0_1_n_n.lhsNonContracting by decide)]
  rfl
theorem d192_l1 (i : S2000x192.Idx) (q : dot_S2000x64_S64x192_S2000x192_1_0_0_1_n_n.contr.Idx) :
    (dot_S2000x64_S64x192_S2000x192_1_0_0_1_n_n.lhsIdx i q 1).val = (q ⟨0, by decide⟩).val :=
  dot_S2000x64_S64x192_S2000x192_1_0_0_1_n_n.lhsIdx_val_of_single rfl i q
theorem d192_r0 (i : S2000x192.Idx) (q : dot_S2000x64_S64x192_S2000x192_1_0_0_1_n_n.contr.Idx) :
    (dot_S2000x64_S64x192_S2000x192_1_0_0_1_n_n.rhsIdx i q 0).val = (q ⟨0, by decide⟩).val :=
  dot_S2000x64_S64x192_S2000x192_1_0_0_1_n_n.rhsIdx_val_of_single rfl i q
theorem d192_r1 (i : S2000x192.Idx) (q : dot_S2000x64_S64x192_S2000x192_1_0_0_1_n_n.contr.Idx) :
    (dot_S2000x64_S64x192_S2000x192_1_0_0_1_n_n.rhsIdx i q 1).val = (i 1).val := by
  unfold DotDims.rhsIdx
  rw [dif_neg (show ¬(1 : Fin S64x192.rank) ∈ dot_S2000x64_S64x192_S2000x192_1_0_0_1_n_n.rhsBatch by decide), dif_pos (show (1 : Fin S64x192.rank) ∈ dot_S2000x64_S64x192_S2000x192_1_0_0_1_n_n.rhsNonContracting by decide)]
  rfl

/-- The product of a 2000-row block with a [64, 192] matrix, accumulated into zero, at entry (p, o). -/
theorem mm192 (A : FVec Ideal S2000x64 .bf16) (B : FVec Ideal S64x192 .bf16) (p : Fin 2000) (o : Fin 192) :
    matmul dot_S2000x64_S64x192_S2000x192_1_0_0_1_n_n none A B (constant (F := Ideal) S2000x192 .f32 0x00000000#32) (ix2 p o)
      = ∑ k : Fin 64, A (ix2 p k) * B (ix2 k o) :=
  Cert.LibPlainMatmul.matmul_zero_apply dot_S2000x64_S64x192_S2000x192_1_0_0_1_n_n none rfl rfl d192_l0 d192_l1 d192_r0 d192_r1 A B p o

theorem d256_l0 (i : S2000x256.Idx) (q : dot_S2000x64_S64x256_S2000x256_1_0_0_1_n_n.contr.Idx) :
    (dot_S2000x64_S64x256_S2000x256_1_0_0_1_n_n.lhsIdx i q 0).val = (i 0).val := by
  unfold DotDims.lhsIdx
  rw [dif_neg (show ¬(0 : Fin S2000x64.rank) ∈ dot_S2000x64_S64x256_S2000x256_1_0_0_1_n_n.lhsBatch by decide), dif_pos (show (0 : Fin S2000x64.rank) ∈ dot_S2000x64_S64x256_S2000x256_1_0_0_1_n_n.lhsNonContracting by decide)]
  rfl
theorem d256_l1 (i : S2000x256.Idx) (q : dot_S2000x64_S64x256_S2000x256_1_0_0_1_n_n.contr.Idx) :
    (dot_S2000x64_S64x256_S2000x256_1_0_0_1_n_n.lhsIdx i q 1).val = (q ⟨0, by decide⟩).val :=
  dot_S2000x64_S64x256_S2000x256_1_0_0_1_n_n.lhsIdx_val_of_single rfl i q
theorem d256_r0 (i : S2000x256.Idx) (q : dot_S2000x64_S64x256_S2000x256_1_0_0_1_n_n.contr.Idx) :
    (dot_S2000x64_S64x256_S2000x256_1_0_0_1_n_n.rhsIdx i q 0).val = (q ⟨0, by decide⟩).val :=
  dot_S2000x64_S64x256_S2000x256_1_0_0_1_n_n.rhsIdx_val_of_single rfl i q
theorem d256_r1 (i : S2000x256.Idx) (q : dot_S2000x64_S64x256_S2000x256_1_0_0_1_n_n.contr.Idx) :
    (dot_S2000x64_S64x256_S2000x256_1_0_0_1_n_n.rhsIdx i q 1).val = (i 1).val := by
  unfold DotDims.rhsIdx
  rw [dif_neg (show ¬(1 : Fin S64x256.rank) ∈ dot_S2000x64_S64x256_S2000x256_1_0_0_1_n_n.rhsBatch by decide), dif_pos (show (1 : Fin S64x256.rank) ∈ dot_S2000x64_S64x256_S2000x256_1_0_0_1_n_n.rhsNonContracting by decide)]
  rfl

/-- The product of a 2000-row block with a [64, 256] matrix, accumulated into zero, at entry (p, o). -/
theorem mm256 (A : FVec Ideal S2000x64 .bf16) (B : FVec Ideal S64x256 .bf16) (p : Fin 2000) (o : Fin 256) :
    matmul dot_S2000x64_S64x256_S2000x256_1_0_0_1_n_n none A B (constant (F := Ideal) S2000x256 .f32 0x00000000#32) (ix2 p o)
      = ∑ k : Fin 64, A (ix2 p k) * B (ix2 k o) :=
  Cert.LibPlainMatmul.matmul_zero_apply dot_S2000x64_S64x256_S2000x256_1_0_0_1_n_n none rfl rfl d256_l0 d256_l1 d256_r0 d256_r1 A B p o

theorem d12_l0 (i : S2000x12.Idx) (q : dot_S2000x64_S64x12_S2000x12_1_0_0_1_n_n.contr.Idx) :
    (dot_S2000x64_S64x12_S2000x12_1_0_0_1_n_n.lhsIdx i q 0).val = (i 0).val := by
  unfold DotDims.lhsIdx
  rw [dif_neg (show ¬(0 : Fin S2000x64.rank) ∈ dot_S2000x64_S64x12_S2000x12_1_0_0_1_n_n.lhsBatch by decide), dif_pos (show (0 : Fin S2000x64.rank) ∈ dot_S2000x64_S64x12_S2000x12_1_0_0_1_n_n.lhsNonContracting by decide)]
  rfl
theorem d12_l1 (i : S2000x12.Idx) (q : dot_S2000x64_S64x12_S2000x12_1_0_0_1_n_n.contr.Idx) :
    (dot_S2000x64_S64x12_S2000x12_1_0_0_1_n_n.lhsIdx i q 1).val = (q ⟨0, by decide⟩).val :=
  dot_S2000x64_S64x12_S2000x12_1_0_0_1_n_n.lhsIdx_val_of_single rfl i q
theorem d12_r0 (i : S2000x12.Idx) (q : dot_S2000x64_S64x12_S2000x12_1_0_0_1_n_n.contr.Idx) :
    (dot_S2000x64_S64x12_S2000x12_1_0_0_1_n_n.rhsIdx i q 0).val = (q ⟨0, by decide⟩).val :=
  dot_S2000x64_S64x12_S2000x12_1_0_0_1_n_n.rhsIdx_val_of_single rfl i q
theorem d12_r1 (i : S2000x12.Idx) (q : dot_S2000x64_S64x12_S2000x12_1_0_0_1_n_n.contr.Idx) :
    (dot_S2000x64_S64x12_S2000x12_1_0_0_1_n_n.rhsIdx i q 1).val = (i 1).val := by
  unfold DotDims.rhsIdx
  rw [dif_neg (show ¬(1 : Fin S64x12.rank) ∈ dot_S2000x64_S64x12_S2000x12_1_0_0_1_n_n.rhsBatch by decide), dif_pos (show (1 : Fin S64x12.rank) ∈ dot_S2000x64_S64x12_S2000x12_1_0_0_1_n_n.rhsNonContracting by decide)]
  rfl

/-- The product of a 2000-row block with a [64, 12] matrix, accumulated into zero, at entry (p, o). -/
theorem mm12 (A : FVec Ideal S2000x64 .bf16) (B : FVec Ideal S64x12 .bf16) (p : Fin 2000) (o : Fin 12) :
    matmul dot_S2000x64_S64x12_S2000x12_1_0_0_1_n_n none A B (constant (F := Ideal) S2000x12 .f32 0x00000000#32) (ix2 p o)
      = ∑ k : Fin 64, A (ix2 p k) * B (ix2 k o) :=
  Cert.LibPlainMatmul.matmul_zero_apply dot_S2000x64_S64x12_S2000x12_1_0_0_1_n_n none rfl rfl d12_l0 d12_l1 d12_r0 d12_r1 A B p o

/-- The projection body at entry (p, q) of its block: row p of the node block against column q of the weight. -/
theorem pay_conv (y0 : Vec Ideal S2000x64 .f32) (y1 : Vec Ideal S64x64 .f32) (p : Fin 2000) (q : Fin 64) :
    k0_pay1 (F := Ideal) y0 y1 (ix2 p q) = ∑ k : Fin 64, y0 (ix2 p k) * y1 (ix2 k q) := by
  unfold k0_pay1
  exact mm64 _ _ p q

/-! ## The two affine maps of the GRU cell -/

/-- The input-side affine map at entry (p, j): row p of the aggregate through the transposed weight, plus the bias. -/
theorem pay4_at (x0 : Vec Ideal S2000x64 .f32) (x4 : Vec Ideal S64x192 .f32) (x6 : Vec Ideal S1x192 .f32) (p : Fin 2000) (j : Fin 192) :
    k1_pay4 (F := Ideal) x0 x4 x6 (ix2 p j) = lin (rowOf x0 p) x4 x6 j := by
  unfold k1_pay4 lin rowOf
  rw [shapeCast_self x0, shapeCast_self x4, shapeCast_self x6]
  exact congrArg₂ (· + ·) (mm192 _ _ p j) (broadcastTo_1b_ab_apply x6 _ p j)

/-- The state-side affine map at entry (p, j). -/
theorem pay5_at (x1 : Vec Ideal S2000x64 .f32) (x5 : Vec Ideal S64x192 .f32) (x7 : Vec Ideal S1x192 .f32) (p : Fin 2000) (j : Fin 192) :
    k1_pay5 (F := Ideal) x1 x5 x7 (ix2 p j) = lin (rowOf x1 p) x5 x7 j := by
  unfold k1_pay5 lin rowOf
  rw [shapeCast_self x5, shapeCast_self x7]
  exact congrArg₂ (· + ·) (mm192 _ _ p j) (broadcastTo_1b_ab_apply x7 _ p j)

/-- A 64-wide column slice of a 192-wide block, read at (p, q): the source at column o + q. -/
theorem slice192 (o : ℕ) (ho : o + 64 ≤ 192) (v : FVec Ideal S2000x192 .f32) (h : S2000x192.Slices ![0, o] S2000x64)
    (p : Fin 2000) (q : Fin 64) :
    extractStridedSlice S2000x64 ![0, o] v h (ix2 p q) = v (ix2 p ⟨o + q.val, by omega⟩) :=
  slice2_axis1_apply o v h p q ⟨o + q.val, by omega⟩ rfl

/-- A 64-wide column slice of a 256-wide block, read at (p, q). -/
theorem slice256 (o : ℕ) (ho : o + 64 ≤ 256) (v : FVec Ideal S2000x256 .f32) (h : S2000x256.Slices ![0, o] S2000x64)
    (p : Fin 2000) (q : Fin 64) :
    extractStridedSlice S2000x64 ![0, o] v h (ix2 p q) = v (ix2 p ⟨o + q.val, by omega⟩) :=
  slice2_axis1_apply o v h p q ⟨o + q.val, by omega⟩ rfl

section Update
variable (x0 x1 x2 x3 : Vec Ideal S2000x64 .f32) (x4 x5 : Vec Ideal S64x192 .f32) (x6 x7 : Vec Ideal S1x192 .f32)
  (x8 x9 : Vec Ideal S64x256 .f32) (x10 x11 : Vec Ideal S1x256 .f32) (x12 : Vec Ideal S64x12 .f32) (x13 : Vec Ideal S1x12 .f32)
  (p : Fin 2000)

/-- A slice of the input-side affine map is the specification's slice of row p's affine map. -/
theorem slice_pay4 (o : ℕ) (ho : o + 64 ≤ 192) (h : S2000x192.Slices ![0, o] S2000x64) (q : Fin 64) :
    extractStridedSlice S2000x64 ![0, o] (k1_pay4 (F := Ideal) x0 x4 x6) h (ix2 p q) = sl o ho (lin (rowOf x0 p) x4 x6) q :=
  (slice192 o ho _ h p q).trans (pay4_at x0 x4 x6 p _)

/-- A slice of the state-side affine map likewise. -/
theorem slice_pay5 (o : ℕ) (ho : o + 64 ≤ 192) (h : S2000x192.Slices ![0, o] S2000x64) (q : Fin 64) :
    extractStridedSlice S2000x64 ![0, o] (k1_pay5 (F := Ideal) x1 x5 x7) h (ix2 p q) = sl o ho (lin (rowOf x1 p) x5 x7) q :=
  (slice192 o ho _ h p q).trans (pay5_at x1 x5 x7 p _)

/-- The update gate z at entry (p, q). -/
theorem pay6_at (q : Fin 64) :
    k1_pay6 (F := Ideal) x0 x1 x4 x5 x6 x7 (ix2 p q)
      = Spec.sig (sl 64 (by omega) (lin (rowOf x0 p) x4 x6) q + sl 64 (by omega) (lin (rowOf x1 p) x5 x7) q) := by
  unfold k1_pay6
  refine Eq.trans ?_ (sig_eq_logistic _).symm
  exact congrArg Ideal.logistic (congrArg₂ (· + ·) (slice_pay4 x0 x4 x6 p 64 (by omega) _ q) (slice_pay5 x1 x5 x7 p 64 (by omega) _ q))

/-- The candidate n at entry (p, q). -/
theorem pay7_at (q : Fin 64) :
    k1_pay7 (F := Ideal) x0 x1 x4 x5 x6 x7 (ix2 p q)
      = Ideal.tanh (sl 128 (by omega) (lin (rowOf x0 p) x4 x6) q
          + Spec.sig (sl 0 (by omega) (lin (rowOf x0 p) x4 x6) q + sl 0 (by omega) (lin (rowOf x1 p) x5 x7) q)
              * sl 128 (by omega) (lin (rowOf x1 p) x5 x7) q) := by
  unfold k1_pay7
  have hr : Ideal.logistic (extractStridedSlice S2000x64 ![0, 0] (k1_pay4 (F := Ideal) x0 x4 x6) slices_S2000x192_o0_0_S2000x64 (ix2 p q)
        + extractStridedSlice S2000x64 ![0, 0] (k1_pay5 (F := Ideal) x1 x5 x7) slices_S2000x192_o0_0_S2000x64 (ix2 p q))
      = Spec.sig (sl 0 (by omega) (lin (rowOf x0 p) x4 x6) q + sl 0 (by omega) (lin (rowOf x1 p) x5 x7) q) :=
    (congrArg Ideal.logistic (congrArg₂ (· + ·) (slice_pay4 x0 x4 x6 p 0 (by omega) _ q) (slice_pay5 x1 x5 x7 p 0 (by omega) _ q))).trans
      (sig_eq_logistic _).symm
  exact congrArg Ideal.tanh (congrArg₂ (· + ·) (slice_pay4 x0 x4 x6 p 128 (by omega) _ q)
    (congrArg₂ (· * ·) hr (slice_pay5 x1 x5 x7 p 128 (by omega) _ q)))

/-- 1 − z at entry (p, q). -/
theorem pay8_at (q : Fin 64) :
    k1_pay8 (F := Ideal) x0 x1 x4 x5 x6 x7 (ix2 p q)
      = one32 - Spec.sig (sl 64 (by omega) (lin (rowOf x0 p) x4 x6) q + sl 64 (by omega) (lin (rowOf x1 p) x5 x7) q) := by
  unfold k1_pay8
  exact congrArg (one32 - ·) (pay6_at x0 x1 x4 x5 x6 x7 p q)

end Update

/-! ## The LSTM cell and the output head -/

/-- The gate pre-activations at entry (p, j), over any GRU outputs: two products and two biases, in the body's order. -/
theorem pay9_at (x1 : Vec Ideal S2000x64 .f32) (v4 v34 v37 v39 : FVec Ideal S2000x64 .f32)
    (x8 x9 : Vec Ideal S64x256 .f32) (x10 x11 : Vec Ideal S1x256 .f32) (p : Fin 2000) (j : Fin 256) :
    k1_pay9 (F := Ideal) x1 v4 v34 v37 v39 x8 x9 x10 x11 (ix2 p j)
      = (((∑ k : Fin 64, (v39 (ix2 p k) * v37 (ix2 p k) + v34 (ix2 p k) * x1 (ix2 p k)) * x8 (ix2 k j)) + x10 (ix2 0 j))
          + ∑ k : Fin 64, v4 (ix2 p k) * x9 (ix2 k j)) + x11 (ix2 0 j) := by
  unfold k1_pay9
  rw [shapeCast_self x8, shapeCast_self x9, shapeCast_self x10, shapeCast_self x11]
  exact congrArg₂ (· + ·) (congrArg₂ (· + ·) (congrArg₂ (· + ·) (mm256 _ _ p j) (broadcastTo_1b_ab_apply x10 _ p j)) (mm256 _ _ p j))
    (broadcastTo_1b_ab_apply x11 _ p j)

/-- The output head's product at entry (p, j), over any hidden state. -/
theorem pay12_at (x1 : Vec Ideal S2000x64 .f32) (v4 v6 v34 v37 v39 : FVec Ideal S2000x64 .f32)
    (x8 x9 : Vec Ideal S64x256 .f32) (x10 x11 : Vec Ideal S1x256 .f32) (x12 : Vec Ideal S64x12 .f32) (p : Fin 2000) (j : Fin 12) :
    k1_pay12 (F := Ideal) x1 v4 v6 v34 v37 v39 x8 x9 x10 x11 x12 (ix2 p j)
      = ∑ k : Fin 64, max (k1_pay11 (F := Ideal) x1 v4 v6 v34 v37 v39 x8 x9 x10 x11 (ix2 p k)) zero32 * x12 (ix2 k j) := by
  unfold k1_pay12
  rw [shapeCast_self x12]
  exact mm12 _ _ p j

section Update
variable (x0 x1 x2 x3 : Vec Ideal S2000x64 .f32) (x4 x5 : Vec Ideal S64x192 .f32) (x6 x7 : Vec Ideal S1x192 .f32)
  (x8 x9 : Vec Ideal S64x256 .f32) (x10 x11 : Vec Ideal S1x256 .f32) (x12 : Vec Ideal S64x12 .f32) (x13 : Vec Ideal S1x12 .f32)
  (p : Fin 2000)

/-- The gate pre-activations at entry (p, j), with the GRU cell's outputs in place, are the specification's gates of row p. -/
theorem pay9_gates (j : Fin 256) :
    (k1_pay9 (F := Ideal) x1 (k1_pay2 x2) (k1_pay6 x0 x1 x4 x5 x6 x7) (k1_pay7 x0 x1 x4 x5 x6 x7) (k1_pay8 x0 x1 x4 x5 x6 x7) x8 x9 x10 x11) (ix2 p j) = (gates (rowOf x0 p) (rowOf x1 p) (rowOf x2 p) x4 x5 x6 x7 x8 x9 x10 x11) j := by
  rw [pay9_at]
  unfold gates
  refine congrArg₂ (· + ·) (congrArg₂ (· + ·) (congrArg₂ (· + ·) (Finset.sum_congr rfl fun k _ => ?_) rfl)
    (Finset.sum_congr rfl fun k _ => ?_)) rfl
  · rw [pay8_at, pay7_at, pay6_at]; rfl
  · unfold k1_pay2; rw [shapeCast_self x2]; rfl

/-- A 64-wide slice of the gate pre-activations is the specification's slice of row p's gates. -/
theorem slice_pay9 (o : ℕ) (ho : o + 64 ≤ 256) (h : S2000x256.Slices ![0, o] S2000x64) (q : Fin 64) :
    extractStridedSlice S2000x64 ![0, o] (k1_pay9 (F := Ideal) x1 (k1_pay2 x2) (k1_pay6 x0 x1 x4 x5 x6 x7) (k1_pay7 x0 x1 x4 x5 x6 x7) (k1_pay8 x0 x1 x4 x5 x6 x7) x8 x9 x10 x11) h (ix2 p q) = sl o ho (gates (rowOf x0 p) (rowOf x1 p) (rowOf x2 p) x4 x5 x6 x7 x8 x9 x10 x11) q :=
  (slice256 o ho _ h p q).trans (pay9_gates x0 x1 x2 x4 x5 x6 x7 x8 x9 x10 x11 p _)

/-- The logistic of such a slice is the specification's σ of it. -/
theorem sig_slice_pay9 (o : ℕ) (ho : o + 64 ≤ 256) (h : S2000x256.Slices ![0, o] S2000x64) (q : Fin 64) :
    Ideal.logistic (extractStridedSlice S2000x64 ![0, o] (k1_pay9 (F := Ideal) x1 (k1_pay2 x2) (k1_pay6 x0 x1 x4 x5 x6 x7) (k1_pay7 x0 x1 x4 x5 x6 x7) (k1_pay8 x0 x1 x4 x5 x6 x7) x8 x9 x10 x11) h (ix2 p q)) = Spec.sig (sl o ho (gates (rowOf x0 p) (rowOf x1 p) (rowOf x2 p) x4 x5 x6 x7 x8 x9 x10 x11) q) :=
  (congrArg Ideal.logistic (slice_pay9 x0 x1 x2 x4 x5 x6 x7 x8 x9 x10 x11 p o ho h q)).trans (sig_eq_logistic _).symm

/-- The stored cell state at entry (p, q) of the block is the specification's c₁ of row p's four rows. -/
theorem pay_c1 (q : Fin 64) :
    k1_pay10 (F := Ideal) x1 (k1_pay2 x2) (k1_pay3 x3) (k1_pay6 x0 x1 x4 x5 x6 x7) (k1_pay7 x0 x1 x4 x5 x6 x7) (k1_pay8 x0 x1 x4 x5 x6 x7) x8 x9 x10 x11 (ix2 p q)
      = c1 (rowOf x0 p) (rowOf x1 p) (rowOf x2 p) (rowOf x3 p) x4 x5 x6 x7 x8 x9 x10 x11 q := by
  have hcp : k1_pay3 (F := Ideal) x3 (ix2 p q) = rowOf x3 p q := by
    unfold k1_pay3; rw [shapeCast_self x3]; rfl
  unfold k1_pay10 c1
  exact congrArg₂ (· + ·)
    (congrArg₂ (· * ·) (sig_slice_pay9 x0 x1 x2 x4 x5 x6 x7 x8 x9 x10 x11 p 64 (by omega) _ q) hcp)
    (congrArg₂ (· * ·) (sig_slice_pay9 x0 x1 x2 x4 x5 x6 x7 x8 x9 x10 x11 p 0 (by omega) _ q)
      (congrArg Ideal.tanh (slice_pay9 x0 x1 x2 x4 x5 x6 x7 x8 x9 x10 x11 p 128 (by omega) _ q)))

/-- The stored hidden state at entry (p, q) is the specification's h₁. -/
theorem pay_h1 (q : Fin 64) :
    k1_pay11 (F := Ideal) x1 (k1_pay2 x2) (k1_pay3 x3) (k1_pay6 x0 x1 x4 x5 x6 x7) (k1_pay7 x0 x1 x4 x5 x6 x7) (k1_pay8 x0 x1 x4 x5 x6 x7) x8 x9 x10 x11 (ix2 p q)
      = h1 (rowOf x0 p) (rowOf x1 p) (rowOf x2 p) (rowOf x3 p) x4 x5 x6 x7 x8 x9 x10 x11 q := by
  unfold k1_pay11 h1
  exact congrArg₂ (· * ·) (sig_slice_pay9 x0 x1 x2 x4 x5 x6 x7 x8 x9 x10 x11 p 192 (by omega) _ q)
    (congrArg Ideal.tanh (pay_c1 x0 x1 x2 x3 x4 x5 x6 x7 x8 x9 x10 x11 p q))

/-- The stored output at entry (p, q) is the specification's output head. -/
theorem pay_out (q : Fin 12) :
    k1_pay1 (F := Ideal) (k1_pay12 x1 (k1_pay2 x2) (k1_pay3 x3) (k1_pay6 x0 x1 x4 x5 x6 x7) (k1_pay7 x0 x1 x4 x5 x6 x7) (k1_pay8 x0 x1 x4 x5 x6 x7) x8 x9 x10 x11 x12) (k1_pay13 x13) (ix2 p q)
      = out (rowOf x0 p) (rowOf x1 p) (rowOf x2 p) (rowOf x3 p) x4 x5 x6 x7 x8 x9 x10 x11 x12 x13 q := by
  unfold k1_pay1 k1_pay13 out
  rw [shapeCast_self x13]
  refine congrArg₂ (· + ·) ((pay12_at _ _ _ _ _ _ _ _ _ _ _ p q).trans (Finset.sum_congr rfl fun k _ => ?_))
    (broadcastTo_1b_ab_apply x13 _ p q)
  rw [pay_h1]

end Update

end Cert.KernelIdeal.CellValue

end
-- ==== Proof.KerBlocks.lean ====
/-
  From blocks to arrays: what each region leaves in its output arrays, as one function of the arrays it found.
-/
import proofs.«162048_j1778116460895_1_alg».proof.Proof.Gen.KernelIdeal.Frame
import proofs.«162048_j1778116460895_1_alg».proof.Proof.KerCell
import Idealize.ShloMosaic.Lib.Pipeline.Value

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Blocks

open Cert.KernelIdeal Cert.KernelIdeal.Gen Cert.Spec Cert.KernelIdeal.CellValue

variable (V : (c : Dev nD) → (b : Ref sig .tc) → Buf (Elt Ideal) ((c : Thread nD τ).loc b))

/-! ## The projection region -/

/-- The zero offsets of a whole-buffer access, however they are spelt. -/
theorem hz : (![0, 0] : Fin 2 → Nat) = fun _ => 0 := funext fun a => by fin_cases a <;> rfl

/-- The projection's index maps over its 50 points: point t takes row block t of the node features and of the
    result, and the whole weight. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry x of the node-feature block at point t is entry (2000·t + x₀, x₁) of the node features. -/
theorem xblk_apply (c : Dev nD) (t : Fin cfg0.N) (x : S2000x64.Idx) (k : S100000x64.Idx)
    (hk0 : (k 0).val = 2000 * t.val + (x 0).val) (hk1 : (k 1).val = (x 1).val) :
    (iblk0 (F := Ideal) V c 0 t : Vec Ideal S2000x64 .f32) x = (V c main_arg0 : S100000x64.Idx → EReal) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 64 + 1 * (x 1).val = (k 1).val; rw [e1, hk1]; omega

/-- The weight block at every point is the weight. -/
theorem wblk_eq (c : Dev nD) (t : Fin cfg0.N) :
    (iblk0 (F := Ideal) V c 1 t : Vec Ideal S64x64 .f32) = (V c main_arg2 : S64x64.Idx → EReal) := by
  obtain ⟨-, -, e0, e1, -⟩ := idx0 t
  funext x
  unfold iblk0
  rw [View.read_apply]
  show V c main_arg2 _ = V c main_arg2 _
  congr 1
  funext a
  apply Fin.ext
  match a with
  | ⟨0, _⟩ => show win0_1.index t 0 * 64 + 1 * (x 0).val = (x 0).val; rw [e0]; omega
  | ⟨1, _⟩ => show win0_1.index t 1 * 64 + 1 * (x 1).val = (x 1).val; rw [e1]; omega

/-- What point t writes back is block t of the product of the node features and the weight. -/
theorem conv_flushed (c : Dev nD) (t : Fin cfg0.N) :
    (dat0 (F := Ideal) V c).flushed 2 t
      = ((cfg0.win 2).blk t).view.read (Elt Ideal) (convS (V c main_arg0) (V c main_arg2)) := by
  show (cfg0.win 2).cut (grid0.coords t) ((dat0 V c).after 2 t) = _
  rw [after0_2]
  unfold out0_2
  rw [View.canon_unit_zero hz]
  simp only [View.ld_unit_zero (S := S2000x64) hz, View.ld_unit_zero (S := S64x64) hz]
  obtain ⟨-, -, -, -, e0, e1⟩ := idx0 t
  funext j
  obtain ⟨p, q, rfl⟩ : ∃ (p : Fin 2000) (q : Fin 64), j = ix2 p q := ⟨j 0, j 1, eq_ix2 j⟩
  refine (pay_conv (iblk0 V c 0 t) (iblk0 V c 1 t) p q).trans ?_
  rw [View.read_apply]
  unfold convS
  refine Finset.sum_congr rfl fun k _ => ?_
  rw [wblk_eq V c t]
  refine congrArg₂ (· * ·) (xblk_apply V c t (ix2 p k) _ ?_ rfl) (congrArg (V c main_arg2) ?_)
  · show win0_2.index t 0 * 2000 + 1 * p.val = 2000 * t.val + p.val
    rw [e0]; omega
  · funext a
    apply Fin.ext
    match a with
    | ⟨0, _⟩ => rfl
    | ⟨1, _⟩ => show q.val = win0_2.index t 1 * 64 + 1 * q.val; rw [e1]; omega

/-- An entry of the result is in point t's block iff each coordinate is in the block's range on its axis. -/
theorem conv_mem_blk (t : Fin cfg0.N) (i : S100000x64.Idx) :
    i ∈ ((cfg0.win 2).blk t).view.set
      ↔ ∀ a : Fin 2, win0_2.index t a * S2000x64.size a ≤ (i a).val ∧ (i a).val < win0_2.index t a * S2000x64.size a + S2000x64.size a := by
  show i ∈ ((View.whole main_v4).slice (win0_2.rect t)).set ↔ _
  rw [View.set_slice_whole, Rect.mem_set_unit]
  exact Iff.rfl

/-- Every entry of the result is in the block of the point its row names: row r is in block r / 2000. -/
theorem conv_cover (i : S100000x64.Idx) :
    ∃ t : Fin cfg0.N, (cfg0.win 2).flush t = true ∧ i ∈ ((cfg0.win 2).blk t).view.set := by
  have hN : grid0.N = 50 := N_0
  have hi0 : (i 0).val < 100000 := (i 0).isLt
  have hi1 : (i 1).val < 64 := (i 1).isLt
  let t : Fin cfg0.N := ⟨(i 0).val / 2000, by show (i 0).val / 2000 < grid0.N; rw [hN]; omega⟩
  have ht : t.val = (i 0).val / 2000 := rfl
  obtain ⟨-, -, -, -, e0, e1⟩ := idx0 t
  refine ⟨t, flush0_2 t, ?_⟩
  rw [conv_mem_blk]
  intro a
  match a with
  | ⟨0, _⟩ => show win0_2.index t 0 * 2000 ≤ (i 0).val ∧ (i 0).val < win0_2.index t 0 * 2000 + 2000; rw [e0, ht]; omega
  | ⟨1, _⟩ => show win0_2.index t 1 * 64 ≤ (i 1).val ∧ (i 1).val < win0_2.index t 1 * 64 + 64; rw [e1]; omega

/-- After the projection region, its output array is the plain product of the node features and the weight it found. -/
theorem conv_final (c : Dev nD) :
    (dat0 (F := Ideal) V c).arrAt 2 cfg0.N = convS (V c main_arg0) (V c main_arg2) :=
  (dat0 V c).arrAt_eq_of_cover 2 (convS (V c main_arg0) (V c main_arg2)) (fun t _ => conv_flushed V c t) conv_cover

/-! ## The update region -/

/-- The update's index maps over its 50 points, for the four row-blocked inputs: point t takes row block t. -/
theorem idx1_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- For the ten weights and biases: every point takes the whole array. -/
theorem idx1_whole : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0 :=
  (by decide +kernel : ∀ t : Fin grid1.N, _)

/-- For the three results: point t writes row block t. -/
theorem idx1_out : ∀ t : Fin cfg1.N,
    win1_14.index t (0 : Fin 2) = t.val ∧ win1_14.index t (1 : Fin 2) = 0
    ∧ win1_15.index t (0 : Fin 2) = t.val ∧ win1_15.index t (1 : Fin 2) = 0
    ∧ win1_16.index t (0 : Fin 2) = t.val ∧ win1_16.index t (1 : Fin 2) = 0 :=
  (by decide +kernel : ∀ t : Fin grid1.N, _)

/-- Entry x of the aggregated-message block at point t is entry (2000·t + x₀, x₁) of the array. -/
theorem aggblk_apply (c : Dev nD) (t : Fin cfg1.N) (x : S2000x64.Idx) (k : S100000x64.Idx)
    (hk0 : (k 0).val = 2000 * t.val + (x 0).val) (hk1 : (k 1).val = (x 1).val) :
    (iblk1 (F := Ideal) V c 0 t : Vec Ideal S2000x64 .f32) x = (V c main_v27 : S100000x64.Idx → EReal) k := by
  obtain ⟨e0, e1, -, -, -, -, -, -⟩ := idx1_rows t
  unfold iblk1
  rw [View.read_apply]
  show V c main_v27 _ = V c main_v27 _
  congr 1
  funext a
  apply Fin.ext
  match a with
  | ⟨0, _⟩ => show win1_0.index t 0 * 2000 + 1 * (x 0).val = (k 0).val; rw [e0, hk0]; omega
  | ⟨1, _⟩ => show win1_0.index t 1 * 64 + 1 * (x 1).val = (k 1).val; rw [e1, hk1]; omega

/-- Row p of that block is row 2000·t + p of the array. -/
theorem aggrow_eq (c : Dev nD) (t : Fin cfg1.N) (p : Fin 2000) (r : Fin 100000) (hr : r.val = 2000 * t.val + p.val) :
    rowOf (R := 2000) (iblk1 (F := Ideal) V c 0 t) p = rowOf (R := 100000) (V c main_v27) r :=
  funext fun k => aggblk_apply V c t (ix2 p k) (ix2 r k) hr rfl

/-- Entry x of the node-feature block at point t is entry (2000·t + x₀, x₁) of the array. -/
theorem featblk_apply (c : Dev nD) (t : Fin cfg1.N) (x : S2000x64.Idx) (k : S100000x64.Idx)
    (hk0 : (k 0).val = 2000 * t.val + (x 0).val) (hk1 : (k 1).val = (x 1).val) :
    (iblk1 (F := Ideal) V c 1 t : Vec Ideal S2000x64 .f32) x = (V c main_arg0 : S100000x64.Idx → EReal) k := by
  obtain ⟨-, -, e0, e1, -, -, -, -⟩ := idx1_rows t
  unfold iblk1
  rw [View.read_apply]
  show V c main_arg0 _ = V c main_arg0 _
  congr 1
  funext a
  apply Fin.ext
  match a with
  | ⟨0, _⟩ => show win1_1.index t 0 * 2000 + 1 * (x 0).val = (k 0).val; rw [e0, hk0]; omega
  | ⟨1, _⟩ => show win1_1.index t 1 * 64 + 1 * (x 1).val = (k 1).val; rw [e1, hk1]; omega

/-- Row p of that block is row 2000·t + p of the array. -/
theorem featrow_eq (c : Dev nD) (t : Fin cfg1.N) (p : Fin 2000) (r : Fin 100000) (hr : r.val = 2000 * t.val + p.val) :
    rowOf (R := 2000) (iblk1 (F := Ideal) V c 1 t) p = rowOf (R := 100000) (V c main_arg0) r :=
  funext fun k => featblk_apply V c t (ix2 p k) (ix2 r k) hr rfl

/-- Entry x of the previous hidden-state block at point t is entry (2000·t + x₀, x₁) of the array. -/
theorem hidblk_apply (c : Dev nD) (t : Fin cfg1.N) (x : S2000x64.Idx) (k : S100000x64.Idx)
    (hk0 : (k 0).val = 2000 * t.val + (x 0).val) (hk1 : (k 1).val = (x 1).val) :
    (iblk1 (F := Ideal) V c 2 t : Vec Ideal S2000x64 .f32) x = (V c main_v28 : S100000x64.Idx → EReal) k := by
  obtain ⟨-, -, -, -, e0, e1, -, -⟩ := idx1_rows t
  unfold iblk1
  rw [View.read_apply]
  show V c main_v28 _ = V c main_v28 _
  congr 1
  funext a
  apply Fin.ext
  match a with
  | ⟨0, _⟩ => show win1_2.index t 0 * 2000 + 1 * (x 0).val = (k 0).val; rw [e0, hk0]; omega
  | ⟨1, _⟩ => show win1_2.index t 1 * 64 + 1 * (x 1).val = (k 1).val; rw [e1, hk1]; omega

/-- Row p of that block is row 2000·t + p of the array. -/
theorem hidrow_eq (c : Dev nD) (t : Fin cfg1.N) (p : Fin 2000) (r : Fin 100000) (hr : r.val = 2000 * t.val + p.val) :
    rowOf (R := 2000) (iblk1 (F := Ideal) V c 2 t) p = rowOf (R := 100000) (V c main_v28) r :=
  funext fun k => hidblk_apply V c t (ix2 p k) (ix2 r k) hr rfl

/-- Entry x of the previous cell-state block at point t is entry (2000·t + x₀, x₁) of the array. -/
theorem cellblk_apply (c : Dev nD) (t : Fin cfg1.N) (x : S2000x64.Idx) (k : S100000x64.Idx)
    (hk0 : (k 0).val = 2000 * t.val + (x 0).val) (hk1 : (k 1).val = (x 1).val) :
    (iblk1 (F := Ideal) V c 3 t : Vec Ideal S2000x64 .f32) x = (V c main_v29 : S100000x64.Idx → EReal) k := by
  obtain ⟨-, -, -, -, -, -, e0, e1⟩ := idx1_rows t
  unfold iblk1
  rw [View.read_apply]
  show V c main_v29 _ = V c main_v29 _
  congr 1
  funext a
  apply Fin.ext
  match a with
  | ⟨0, _⟩ => show win1_3.index t 0 * 2000 + 1 * (x 0).val = (k 0).val; rw [e0, hk0]; omega
  | ⟨1, _⟩ => show win1_3.index t 1 * 64 + 1 * (x 1).val = (k 1).val; rw [e1, hk1]; omega

/-- Row p of that block is row 2000·t + p of the array. -/
theorem cellrow_eq (c : Dev nD) (t : Fin cfg1.N) (p : Fin 2000) (r : Fin 100000) (hr : r.val = 2000 * t.val + p.val) :
    rowOf (R := 2000) (iblk1 (F := Ideal) V c 3 t) p = rowOf (R := 100000) (V c main_v29) r :=
  funext fun k => cellblk_apply V c t (ix2 p k) (ix2 r k) hr rfl

/-- The block of the GRU input weight at every point is the whole array. -/
theorem wih_eq (c : Dev nD) (t : Fin cfg1.N) :
    (iblk1 (F := Ideal) V c 4 t : Vec Ideal S64x192 .f32) = (V c main_v30 : S64x192.Idx → EReal) := by
  obtain ⟨e0, e1, -, -, -, -, -, -, -, -, -, -, -, -, -, -, -, -, -, -⟩ := idx1_whole t
  funext x
  unfold iblk1
  rw [View.read_apply]
  show V c main_v30 _ = V c main_v30 _
  congr 1
  funext a
  apply Fin.ext
  match a with
  | ⟨0, _⟩ => show win1_4.index t 0 * 64 + 1 * (x 0).val = (x 0).val; rw [e0]; omega
  | ⟨1, _⟩ => show win1_4.index t 1 * 192 + 1 * (x 1).val = (x 1).val; rw [e1]; omega

/-- The block of the GRU hidden weight at every point is the whole array. -/
theorem whh_eq (c : Dev nD) (t : Fin cfg1.N) :
    (iblk1 (F := Ideal) V c 5 t : Vec Ideal S64x192 .f32) = (V c main_v31 : S64x192.Idx → EReal) := by
  obtain ⟨-, -, e0, e1, -, -, -, -, -, -, -, -, -, -, -, -, -, -, -, -⟩ := idx1_whole t
  funext x
  unfold iblk1
  rw [View.read_apply]
  show V c main_v31 _ = V c main_v31 _
  congr 1
  funext a
  apply Fin.ext
  match a with
  | ⟨0, _⟩ => show win1_5.index t 0 * 64 + 1 * (x 0).val = (x 0).val; rw [e0]; omega
  | ⟨1, _⟩ => show win1_5.index t 1 * 192 + 1 * (x 1).val = (x 1).val; rw [e1]; omega

/-- The block of the GRU input bias at every point is the whole array. -/
theorem bih_eq (c : Dev nD) (t : Fin cfg1.N) :
    (iblk1 (F := Ideal) V c 6 t : Vec Ideal S1x192 .f32) = (V c main_v35 : S1x192.Idx → EReal) := by
  obtain ⟨-, -, -, -, e0, e1, -, -, -, -, -, -, -, -, -, -, -, -, -, -⟩ := idx1_whole t
  funext x
  unfold iblk1
  rw [View.read_apply]
  show V c main_v35 _ = V c main_v35 _
  congr 1
  funext a
  apply Fin.ext
  match a with
  | ⟨0, _⟩ => show win1_6.index t 0 * 1 + 1 * (x 0).val = (x 0).val; rw [e0]; omega
  | ⟨1, _⟩ => show win1_6.index t 1 * 192 + 1 * (x 1).val = (x 1).val; rw [e1]; omega

/-- The block of the GRU hidden bias at every point is the whole array. -/
theorem bhh_eq (c : Dev nD) (t : Fin cfg1.N) :
    (iblk1 (F := Ideal) V c 7 t : Vec Ideal S1x192 .f32) = (V c main_v36 : S1x192.Idx → EReal) := by
  obtain ⟨-, -, -, -, -, -, e0, e1, -, -, -, -, -, -, -, -, -, -, -, -⟩ := idx1_whole t
  funext x
  unfold iblk1
  rw [View.read_apply]
  show V c main_v36 _ = V c main_v36 _
  congr 1
  funext a
  apply Fin.ext
  match a with
  | ⟨0, _⟩ => show win1_7.index t 0 * 1 + 1 * (x 0).val = (x 0).val; rw [e0]; omega
  | ⟨1, _⟩ => show win1_7.index t 1 * 192 + 1 * (x 1).val = (x 1).val; rw [e1]; omega

/-- The block of the LSTM input weight at every point is the whole array. -/
theorem lwih_eq (c : Dev nD) (t : Fin cfg1.N) :
    (iblk1 (F := Ideal) V c 8 t : Vec Ideal S64x256 .f32) = (V c main_v32 : S64x256.Idx → EReal) := by
  obtain ⟨-, -, -, -, -, -, -, -, e0, e1, -, -, -, -, -, -, -, -, -, -⟩ := idx1_whole t
  funext x
  unfold iblk1
  rw [View.read_apply]
  show V c main_v32 _ = V c main_v32 _
  congr 1
  funext a
  apply Fin.ext
  match a with
  | ⟨0, _⟩ => show win1_8.index t 0 * 64 + 1 * (x 0).val = (x 0).val; rw [e0]; omega
  | ⟨1, _⟩ => show win1_8.index t 1 * 256 + 1 * (x 1).val = (x 1).val; rw [e1]; omega

/-- The block of the LSTM hidden weight at every point is the whole array. -/
theorem lwhh_eq (c : Dev nD) (t : Fin cfg1.N) :
    (iblk1 (F := Ideal) V c 9 t : Vec Ideal S64x256 .f32) = (V c main_v33 : S64x256.Idx → EReal) := by
  obtain ⟨-, -, -, -, -, -, -, -, -, -, e0, e1, -, -, -, -, -, -, -, -⟩ := idx1_whole t
  funext x
  unfold iblk1
  rw [View.read_apply]
  show V c main_v33 _ = V c main_v33 _
  congr 1
  funext a
  apply Fin.ext
  match a with
  | ⟨0, _⟩ => show win1_9.index t 0 * 64 + 1 * (x 0).val = (x 0).val; rw [e0]; omega
  | ⟨1, _⟩ => show win1_9.index t 1 * 256 + 1 * (x 1).val = (x 1).val; rw [e1]; omega

/-- The block of the LSTM input bias at every point is the whole array. -/
theorem lbih_eq (c : Dev nD) (t : Fin cfg1.N) :
    (iblk1 (F := Ideal) V c 10 t : Vec Ideal S1x256 .f32) = (V c main_v37 : S1x256.Idx → EReal) := by
  obtain ⟨-, -, -, -, -, -, -, -, -, -, -, -, e0, e1, -, -, -, -, -, -⟩ := idx1_whole t
  funext x
  unfold iblk1
  rw [View.read_apply]
  show V c main_v37 _ = V c main_v37 _
  congr 1
  funext a
  apply Fin.ext
  match a with
  | ⟨0, _⟩ => show win1_10.index t 0 * 1 + 1 * (x 0).val = (x 0).val; rw [e0]; omega
  | ⟨1, _⟩ => show win1_10.index t 1 * 256 + 1 * (x 1).val = (x 1).val; rw [e1]; omega

/-- The block of the LSTM hidden bias at every point is the whole array. -/
theorem lbhh_eq (c : Dev nD) (t : Fin cfg1.N) :
    (iblk1 (F := Ideal) V c 11 t : Vec Ideal S1x256 .f32) = (V c main_v38 : S1x256.Idx → EReal) := by
  obtain ⟨-, -, -, -, -, -, -, -, -, -, -, -, -, -, e0, e1, -, -, -, -⟩ := idx1_whole t
  funext x
  unfold iblk1
  rw [View.read_apply]
  show V c main_v38 _ = V c main_v38 _
  congr 1
  funext a
  apply Fin.ext
  match a with
  | ⟨0, _⟩ => show win1_11.index t 0 * 1 + 1 * (x 0).val = (x 0).val; rw [e0]; omega
  | ⟨1, _⟩ => show win1_11.index t 1 * 256 + 1 * (x 1).val = (x 1).val; rw [e1]; omega

/-- The block of the output weight at every point is the whole array. -/
theorem linw_eq (c : Dev nD) (t : Fin cfg1.N) :
    (iblk1 (F := Ideal) V c 12 t : Vec Ideal S64x12 .f32) = (V c main_v34 : S64x12.Idx → EReal) := by
  obtain ⟨-, -, -, -, -, -, -, -, -, -, -, -, -, -, -, -, e0, e1, -, -⟩ := idx1_whole t
  funext x
  unfold iblk1
  rw [View.read_apply]
  show V c main_v34 _ = V c main_v34 _
  congr 1
  funext a
  apply Fin.ext
  match a with
  | ⟨0, _⟩ => show win1_12.index t 0 * 64 + 1 * (x 0).val = (x 0).val; rw [e0]; omega
  | ⟨1, _⟩ => show win1_12.index t 1 * 12 + 1 * (x 1).val = (x 1).val; rw [e1]; omega

/-- The block of the output bias at every point is the whole array. -/
theorem linb_eq (c : Dev nD) (t : Fin cfg1.N) :
    (iblk1 (F := Ideal) V c 13 t : Vec Ideal S1x12 .f32) = (V c main_v39 : S1x12.Idx → EReal) := by
  obtain ⟨-, -, -, -, -, -, -, -, -, -, -, -, -, -, -, -, -, -, e0, e1⟩ := idx1_whole t
  funext x
  unfold iblk1
  rw [View.read_apply]
  show V c main_v39 _ = V c main_v39 _
  congr 1
  funext a
  apply Fin.ext
  match a with
  | ⟨0, _⟩ => show win1_13.index t 0 * 1 + 1 * (x 0).val = (x 0).val; rw [e0]; omega
  | ⟨1, _⟩ => show win1_13.index t 1 * 12 + 1 * (x 1).val = (x 1).val; rw [e1]; omega

/-! ### The specification's arrays at an entry given by its two coordinates -/

section AtEntry
variable {R : ℕ} (agg x hp cp : Mat R 64) (WihT WhhT : Mat 64 192) (bih bhh : Mat 1 192)
  (LWihT LWhhT : Mat 64 256) (lbih lbhh : Mat 1 256) (LinWT : Mat 64 12) (linb : Mat 1 12) (r : Fin R)

theorem C1S_at (q : Fin 64) :
    C1S agg x hp cp WihT WhhT bih bhh LWihT LWhhT lbih lbhh (ix2 r q)
      = c1 (rowOf agg r) (rowOf x r) (rowOf hp r) (rowOf cp r) WihT WhhT bih bhh LWihT LWhhT lbih lbhh q := rfl

theorem H1S_at (q : Fin 64) :
    H1S agg x hp cp WihT WhhT bih bhh LWihT LWhhT lbih lbhh (ix2 r q)
      = h1 (rowOf agg r) (rowOf x r) (rowOf hp r) (rowOf cp r) WihT WhhT bih bhh LWihT LWhhT lbih lbhh q := rfl

theorem OutS_at (q : Fin 12) :
    OutS agg x hp cp WihT WhhT bih bhh LWihT LWhhT lbih lbhh LinWT linb (ix2 r q)
      = out (rowOf agg r) (rowOf x r) (rowOf hp r) (rowOf cp r) WihT WhhT bih bhh LWihT LWhhT lbih lbhh LinWT linb q := rfl

end AtEntry

/-! ### The cell state -/

/-- An array read through point t's block of the cell state's window is the array at the block's entries. -/
theorem c1_read (G : S100000x64.Idx → EReal) (t : Fin cfg1.N) (x : S2000x64.Idx) :
    ((cfg1.win 16).blk t).view.read (Elt Ideal) G x = G (((cfg1.win 16).blk t).view.emb x) := rfl

/-- What point t writes back to the cell state's array is block t of the specification's array. -/
theorem c1_flushed (c : Dev nD) (t : Fin cfg1.N) :
    (dat1 (F := Ideal) V c).flushed 16 t
      = ((cfg1.win 16).blk t).view.read (Elt Ideal)
          (C1S (V c main_v27) (V c main_arg0) (V c main_v28) (V c main_v29) (V c main_v30) (V c main_v31) (V c main_v35) (V c main_v36)
          (V c main_v32) (V c main_v33) (V c main_v37) (V c main_v38)) := by
  show (cfg1.win 16).cut (grid1.coords t) ((dat1 V c).after 16 t) = _
  rw [after1_16]
  unfold out1_16
  rw [View.canon_unit_zero hz]
  simp only [View.ld_unit_zero (S := S2000x64) hz, View.ld_unit_zero (S := S64x192) hz, View.ld_unit_zero (S := S1x192) hz, View.ld_unit_zero (S := S64x256) hz, View.ld_unit_zero (S := S1x256) hz]
  obtain ⟨-, -, -, -, e0, e1⟩ := idx1_out t
  have hN : grid1.N = 50 := N_1
  have ht : t.val < grid1.N := t.isLt
  rw [hN] at ht
  funext j
  obtain ⟨p, q, rfl⟩ : ∃ (p : Fin 2000) (q : Fin 64), j = ix2 p q := ⟨j 0, j 1, eq_ix2 j⟩
  have hp : p.val < 2000 := p.isLt
  refine (pay_c1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) p q).trans ?_
  let r : Fin 100000 := ⟨2000 * t.val + p.val, by omega⟩
  have hr : r.val = 2000 * t.val + p.val := rfl
  have hi : ((cfg1.win 16).blk t).view.emb (ix2 p q) = ix2 r q := by
    funext a
    apply Fin.ext
    match a with
    | ⟨0, _⟩ => show win1_16.index t 0 * 2000 + 1 * p.val = 2000 * t.val + p.val; rw [e0]; omega
    | ⟨1, _⟩ => show win1_16.index t 1 * 64 + 1 * q.val = q.val; rw [e1]; omega
  rw [c1_read, hi, C1S_at, aggrow_eq V c t p r hr, featrow_eq V c t p r hr, hidrow_eq V c t p r hr, cellrow_eq V c t p r hr, wih_eq V c t, whh_eq V c t, bih_eq V c t, bhh_eq V c t, lwih_eq V c t, lwhh_eq V c t, lbih_eq V c t, lbhh_eq V c t]

/-- An entry of that array is in point t's block iff each coordinate is in the block's range on its axis. -/
theorem c1_mem_blk (t : Fin cfg1.N) (i : S100000x64.Idx) :
    i ∈ ((cfg1.win 16).blk t).view.set
      ↔ ∀ a : Fin 2, win1_16.index t a * S2000x64.size a ≤ (i a).val ∧ (i a).val < win1_16.index t a * S2000x64.size a + S2000x64.size a := by
  show i ∈ ((View.whole main_v40_2).slice (win1_16.rect t)).set ↔ _
  rw [View.set_slice_whole, Rect.mem_set_unit]
  exact Iff.rfl

/-- Every entry of that array is in the block of the point its row names: row r is in block r / 2000. -/
theorem c1_cover (i : S100000x64.Idx) :
    ∃ t : Fin cfg1.N, (cfg1.win 16).flush t = true ∧ i ∈ ((cfg1.win 16).blk t).view.set := by
  have hN : grid1.N = 50 := N_1
  have hi0 : (i 0).val < 100000 := (i 0).isLt
  have hi1 : (i 1).val < 64 := (i 1).isLt
  let t : Fin cfg1.N := ⟨(i 0).val / 2000, by show (i 0).val / 2000 < grid1.N; rw [hN]; omega⟩
  have ht : t.val = (i 0).val / 2000 := rfl
  obtain ⟨-, -, -, -, e0, e1⟩ := idx1_out t
  refine ⟨t, flush1_16 t, ?_⟩
  rw [c1_mem_blk]
  intro a
  match a with
  | ⟨0, _⟩ => show win1_16.index t 0 * 2000 ≤ (i 0).val ∧ (i 0).val < win1_16.index t 0 * 2000 + 2000; rw [e0, ht]; omega
  | ⟨1, _⟩ => show win1_16.index t 1 * 64 ≤ (i 1).val ∧ (i 1).val < win1_16.index t 1 * 64 + 64; rw [e1]; omega

/-! ### The hidden state -/

/-- An array read through point t's block of the hidden state's window is the array at the block's entries. -/
theorem h1_read (G : S100000x64.Idx → EReal) (t : Fin cfg1.N) (x : S2000x64.Idx) :
    ((cfg1.win 15).blk t).view.read (Elt Ideal) G x = G (((cfg1.win 15).blk t).view.emb x) := rfl

/-- What point t writes back to the hidden state's array is block t of the specification's array. -/
theorem h1_flushed (c : Dev nD) (t : Fin cfg1.N) :
    (dat1 (F := Ideal) V c).flushed 15 t
      = ((cfg1.win 15).blk t).view.read (Elt Ideal)
          (H1S (V c main_v27) (V c main_arg0) (V c main_v28) (V c main_v29) (V c main_v30) (V c main_v31) (V c main_v35) (V c main_v36)
          (V c main_v32) (V c main_v33) (V c main_v37) (V c main_v38)) := by
  show (cfg1.win 15).cut (grid1.coords t) ((dat1 V c).after 15 t) = _
  rw [after1_15]
  unfold out1_15
  rw [View.canon_unit_zero hz]
  simp only [View.ld_unit_zero (S := S2000x64) hz, View.ld_unit_zero (S := S64x192) hz, View.ld_unit_zero (S := S1x192) hz, View.ld_unit_zero (S := S64x256) hz, View.ld_unit_zero (S := S1x256) hz]
  obtain ⟨-, -, e0, e1, -, -⟩ := idx1_out t
  have hN : grid1.N = 50 := N_1
  have ht : t.val < grid1.N := t.isLt
  rw [hN] at ht
  funext j
  obtain ⟨p, q, rfl⟩ : ∃ (p : Fin 2000) (q : Fin 64), j = ix2 p q := ⟨j 0, j 1, eq_ix2 j⟩
  have hp : p.val < 2000 := p.isLt
  refine (pay_h1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) p q).trans ?_
  let r : Fin 100000 := ⟨2000 * t.val + p.val, by omega⟩
  have hr : r.val = 2000 * t.val + p.val := rfl
  have hi : ((cfg1.win 15).blk t).view.emb (ix2 p q) = ix2 r q := by
    funext a
    apply Fin.ext
    match a with
    | ⟨0, _⟩ => show win1_15.index t 0 * 2000 + 1 * p.val = 2000 * t.val + p.val; rw [e0]; omega
    | ⟨1, _⟩ => show win1_15.index t 1 * 64 + 1 * q.val = q.val; rw [e1]; omega
  rw [h1_read, hi, H1S_at, aggrow_eq V c t p r hr, featrow_eq V c t p r hr, hidrow_eq V c t p r hr, cellrow_eq V c t p r hr, wih_eq V c t, whh_eq V c t, bih_eq V c t, bhh_eq V c t, lwih_eq V c t, lwhh_eq V c t, lbih_eq V c t, lbhh_eq V c t]

/-- An entry of that array is in point t's block iff each coordinate is in the block's range on its axis. -/
theorem h1_mem_blk (t : Fin cfg1.N) (i : S100000x64.Idx) :
    i ∈ ((cfg1.win 15).blk t).view.set
      ↔ ∀ a : Fin 2, win1_15.index t a * S2000x64.size a ≤ (i a).val ∧ (i a).val < win1_15.index t a * S2000x64.size a + S2000x64.size a := by
  show i ∈ ((View.whole main_v40_1).slice (win1_15.rect t)).set ↔ _
  rw [View.set_slice_whole, Rect.mem_set_unit]
  exact Iff.rfl

/-- Every entry of that array is in the block of the point its row names: row r is in block r / 2000. -/
theorem h1_cover (i : S100000x64.Idx) :
    ∃ t : Fin cfg1.N, (cfg1.win 15).flush t = true ∧ i ∈ ((cfg1.win 15).blk t).view.set := by
  have hN : grid1.N = 50 := N_1
  have hi0 : (i 0).val < 100000 := (i 0).isLt
  have hi1 : (i 1).val < 64 := (i 1).isLt
  let t : Fin cfg1.N := ⟨(i 0).val / 2000, by show (i 0).val / 2000 < grid1.N; rw [hN]; omega⟩
  have ht : t.val = (i 0).val / 2000 := rfl
  obtain ⟨-, -, e0, e1, -, -⟩ := idx1_out t
  refine ⟨t, flush1_15 t, ?_⟩
  rw [h1_mem_blk]
  intro a
  match a with
  | ⟨0, _⟩ => show win1_15.index t 0 * 2000 ≤ (i 0).val ∧ (i 0).val < win1_15.index t 0 * 2000 + 2000; rw [e0, ht]; omega
  | ⟨1, _⟩ => show win1_15.index t 1 * 64 ≤ (i 1).val ∧ (i 1).val < win1_15.index t 1 * 64 + 64; rw [e1]; omega

/-! ### The output head -/

/-- An array read through point t's block of the output head's window is the array at the block's entries. -/
theorem out_read (G : S100000x12.Idx → EReal) (t : Fin cfg1.N) (x : S2000x12.Idx) :
    ((cfg1.win 14).blk t).view.read (Elt Ideal) G x = G (((cfg1.win 14).blk t).view.emb x) := rfl

/-- What point t writes back to the output head's array is block t of the specification's array. -/
theorem out_flushed (c : Dev nD) (t : Fin cfg1.N) :
    (dat1 (F := Ideal) V c).flushed 14 t
      = ((cfg1.win 14).blk t).view.read (Elt Ideal)
          (OutS (V c main_v27) (V c main_arg0) (V c main_v28) (V c main_v29) (V c main_v30) (V c main_v31) (V c main_v35) (V c main_v36)
          (V c main_v32) (V c main_v33) (V c main_v37) (V c main_v38) (V c main_v34) (V c main_v39)) := by
  show (cfg1.win 14).cut (grid1.coords t) ((dat1 V c).after 14 t) = _
  rw [after1_14]
  unfold out1_14
  rw [View.canon_unit_zero hz]
  simp only [View.ld_unit_zero (S := S2000x64) hz, View.ld_unit_zero (S := S64x192) hz, View.ld_unit_zero (S := S1x192) hz, View.ld_unit_zero (S := S64x256) hz, View.ld_unit_zero (S := S1x256) hz, View.ld_unit_zero (S := S64x12) hz, View.ld_unit_zero (S := S1x12) hz]
  obtain ⟨e0, e1, -, -, -, -⟩ := idx1_out t
  have hN : grid1.N = 50 := N_1
  have ht : t.val < grid1.N := t.isLt
  rw [hN] at ht
  funext j
  obtain ⟨p, q, rfl⟩ : ∃ (p : Fin 2000) (q : Fin 12), j = ix2 p q := ⟨j 0, j 1, eq_ix2 j⟩
  have hp : p.val < 2000 := p.isLt
  refine (pay_out (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) p q).trans ?_
  let r : Fin 100000 := ⟨2000 * t.val + p.val, by omega⟩
  have hr : r.val = 2000 * t.val + p.val := rfl
  have hi : ((cfg1.win 14).blk t).view.emb (ix2 p q) = ix2 r q := by
    funext a
    apply Fin.ext
    match a with
    | ⟨0, _⟩ => show win1_14.index t 0 * 2000 + 1 * p.val = 2000 * t.val + p.val; rw [e0]; omega
    | ⟨1, _⟩ => show win1_14.index t 1 * 12 + 1 * q.val = q.val; rw [e1]; omega
  rw [out_read, hi, OutS_at, aggrow_eq V c t p r hr, featrow_eq V c t p r hr, hidrow_eq V c t p r hr, cellrow_eq V c t p r hr, wih_eq V c t, whh_eq V c t, bih_eq V c t, bhh_eq V c t, lwih_eq V c t, lwhh_eq V c t, lbih_eq V c t, lbhh_eq V c t, linw_eq V c t, linb_eq V c t]

/-- An entry of that array is in point t's block iff each coordinate is in the block's range on its axis. -/
theorem out_mem_blk (t : Fin cfg1.N) (i : S100000x12.Idx) :
    i ∈ ((cfg1.win 14).blk t).view.set
      ↔ ∀ a : Fin 2, win1_14.index t a * S2000x12.size a ≤ (i a).val ∧ (i a).val < win1_14.index t a * S2000x12.size a + S2000x12.size a := by
  show i ∈ ((View.whole main_v40_0).slice (win1_14.rect t)).set ↔ _
  rw [View.set_slice_whole, Rect.mem_set_unit]
  exact Iff.rfl

/-- Every entry of that array is in the block of the point its row names: row r is in block r / 2000. -/
theorem out_cover (i : S100000x12.Idx) :
    ∃ t : Fin cfg1.N, (cfg1.win 14).flush t = true ∧ i ∈ ((cfg1.win 14).blk t).view.set := by
  have hN : grid1.N = 50 := N_1
  have hi0 : (i 0).val < 100000 := (i 0).isLt
  have hi1 : (i 1).val < 12 := (i 1).isLt
  let t : Fin cfg1.N := ⟨(i 0).val / 2000, by show (i 0).val / 2000 < grid1.N; rw [hN]; omega⟩
  have ht : t.val = (i 0).val / 2000 := rfl
  obtain ⟨e0, e1, -, -, -, -⟩ := idx1_out t
  refine ⟨t, flush1_14 t, ?_⟩
  rw [out_mem_blk]
  intro a
  match a with
  | ⟨0, _⟩ => show win1_14.index t 0 * 2000 ≤ (i 0).val ∧ (i 0).val < win1_14.index t 0 * 2000 + 2000; rw [e0, ht]; omega
  | ⟨1, _⟩ => show win1_14.index t 1 * 12 ≤ (i 1).val ∧ (i 1).val < win1_14.index t 1 * 12 + 12; rw [e1]; omega

/-! ### The three result arrays -/

/-- After the update region, the output array holds every node's output head. -/
theorem out_final (c : Dev nD) :
    (dat1 (F := Ideal) V c).arrAt 14 cfg1.N
      = OutS (V c main_v27) (V c main_arg0) (V c main_v28) (V c main_v29) (V c main_v30) (V c main_v31) (V c main_v35) (V c main_v36)
          (V c main_v32) (V c main_v33) (V c main_v37) (V c main_v38) (V c main_v34) (V c main_v39) :=
  (dat1 V c).arrAt_eq_of_cover 14
    (OutS (V c main_v27) (V c main_arg0) (V c main_v28) (V c main_v29) (V c main_v30) (V c main_v31) (V c main_v35) (V c main_v36)
          (V c main_v32) (V c main_v33) (V c main_v37) (V c main_v38) (V c main_v34) (V c main_v39))
    (fun t _ => out_flushed V c t) out_cover

/-- … the second result array every node's hidden state … -/
theorem h1_final (c : Dev nD) :
    (dat1 (F := Ideal) V c).arrAt 15 cfg1.N
      = H1S (V c main_v27) (V c main_arg0) (V c main_v28) (V c main_v29) (V c main_v30) (V c main_v31) (V c main_v35) (V c main_v36)
          (V c main_v32) (V c main_v33) (V c main_v37) (V c main_v38) :=
  (dat1 V c).arrAt_eq_of_cover 15
    (H1S (V c main_v27) (V c main_arg0) (V c main_v28) (V c main_v29) (V c main_v30) (V c main_v31) (V c main_v35) (V c main_v36)
          (V c main_v32) (V c main_v33) (V c main_v37) (V c main_v38))
    (fun t _ => h1_flushed V c t) h1_cover

/-- … and the third every node's cell state. -/
theorem c1_final (c : Dev nD) :
    (dat1 (F := Ideal) V c).arrAt 16 cfg1.N
      = C1S (V c main_v27) (V c main_arg0) (V c main_v28) (V c main_v29) (V c main_v30) (V c main_v31) (V c main_v35) (V c main_v36)
          (V c main_v32) (V c main_v33) (V c main_v37) (V c main_v38) :=
  (dat1 V c).arrAt_eq_of_cover 16
    (C1S (V c main_v27) (V c main_arg0) (V c main_v28) (V c main_v29) (V c main_v30) (V c main_v31) (V c main_v35) (V c main_v36)
          (V c main_v32) (V c main_v33) (V c main_v37) (V c main_v38))
    (fun t _ => c1_flushed V c t) c1_cover

end Cert.KernelIdeal.Blocks

end
-- ==== Proof.Results.lean ====
/-
  The three results as one function each of the sixteen argument arrays: the specification's cell functions of
  the shared edge stretch of the plain projection x·W, of the features, of the previous state with its leading unit axis
  dropped, and of the weights transposed and the biases as one-row matrices. Both programs' runs are stated with these
  very terms, so that the two posts meet without any further algebra.
-/
import proofs.«162048_j1778116460895_1_alg».proof.Proof.Spec
import proofs.«162048_j1778116460895_1_alg».proof.Proof.Mid

noncomputable section

open Idealize.ShloMosaic

namespace Cert.Results

open Cert.Spec

variable (x0 : (⟨Cert.KernelIdeal.S100000x64, .f32⟩ : BufTy).Contents (Elt Ideal)) (x1 : (⟨Cert.KernelIdeal.S1600000, .f32⟩ : BufTy).Contents (Elt Ideal)) (x2 : (⟨Cert.KernelIdeal.S64x64, .f32⟩ : BufTy).Contents (Elt Ideal))
  (x3 x4 : (⟨Cert.KernelIdeal.S192x64, .f32⟩ : BufTy).Contents (Elt Ideal)) (x5 x6 : (⟨Cert.KernelIdeal.S192, .f32⟩ : BufTy).Contents (Elt Ideal)) (x7 x8 : (⟨Cert.KernelIdeal.S256x64, .f32⟩ : BufTy).Contents (Elt Ideal)) (x9 x10 : (⟨Cert.KernelIdeal.S256, .f32⟩ : BufTy).Contents (Elt Ideal))
  (x11 : (⟨Cert.KernelIdeal.S12x64, .f32⟩ : BufTy).Contents (Elt Ideal)) (x12 : (⟨Cert.KernelIdeal.S12, .f32⟩ : BufTy).Contents (Elt Ideal)) (x13 x14 : (⟨Cert.KernelIdeal.S1x100000x64, .f32⟩ : BufTy).Contents (Elt Ideal)) (x15 : (⟨Cert.KernelIdeal.S2x1600000, .i32⟩ : BufTy).Contents (Elt Ideal))

/-- Every node's output head. -/
def outOf : (⟨Cert.KernelIdeal.S100000x12, .f32⟩ : BufTy).Contents (Elt Ideal) :=
  OutS (Cert.KernelIdeal.Mid.mid (convS x0 x2) x1 x15) x0
    (shapeCast Cert.KernelIdeal.S100000x64 x13 Cert.KernelIdeal.Facts₀.shapeCasts_S1x100000x64_S100000x64) (shapeCast Cert.KernelIdeal.S100000x64 x14 Cert.KernelIdeal.Facts₀.shapeCasts_S1x100000x64_S100000x64)
    (transpose Cert.KernelIdeal.S64x192 [1, 0] x3 Cert.KernelIdeal.Facts₀.transposes_S192x64_S64x192_1_0) (transpose Cert.KernelIdeal.S64x192 [1, 0] x4 Cert.KernelIdeal.Facts₀.transposes_S192x64_S64x192_1_0)
    (shapeCast Cert.KernelIdeal.S1x192 x5 Cert.KernelIdeal.Facts₀.shapeCasts_S192_S1x192) (shapeCast Cert.KernelIdeal.S1x192 x6 Cert.KernelIdeal.Facts₀.shapeCasts_S192_S1x192)
    (transpose Cert.KernelIdeal.S64x256 [1, 0] x7 Cert.KernelIdeal.Facts₀.transposes_S256x64_S64x256_1_0) (transpose Cert.KernelIdeal.S64x256 [1, 0] x8 Cert.KernelIdeal.Facts₀.transposes_S256x64_S64x256_1_0)
    (shapeCast Cert.KernelIdeal.S1x256 x9 Cert.KernelIdeal.Facts₀.shapeCasts_S256_S1x256) (shapeCast Cert.KernelIdeal.S1x256 x10 Cert.KernelIdeal.Facts₀.shapeCasts_S256_S1x256)
    (transpose Cert.KernelIdeal.S64x12 [1, 0] x11 Cert.KernelIdeal.Facts₀.transposes_S12x64_S64x12_1_0) (shapeCast Cert.KernelIdeal.S1x12 x12 Cert.KernelIdeal.Facts₀.shapeCasts_S12_S1x12)

/-- Every node's hidden state, as a [nodes, 64] array. -/
def h1Of : (⟨Cert.KernelIdeal.S100000x64, .f32⟩ : BufTy).Contents (Elt Ideal) :=
  H1S (Cert.KernelIdeal.Mid.mid (convS x0 x2) x1 x15) x0
    (shapeCast Cert.KernelIdeal.S100000x64 x13 Cert.KernelIdeal.Facts₀.shapeCasts_S1x100000x64_S100000x64) (shapeCast Cert.KernelIdeal.S100000x64 x14 Cert.KernelIdeal.Facts₀.shapeCasts_S1x100000x64_S100000x64)
    (transpose Cert.KernelIdeal.S64x192 [1, 0] x3 Cert.KernelIdeal.Facts₀.transposes_S192x64_S64x192_1_0) (transpose Cert.KernelIdeal.S64x192 [1, 0] x4 Cert.KernelIdeal.Facts₀.transposes_S192x64_S64x192_1_0)
    (shapeCast Cert.KernelIdeal.S1x192 x5 Cert.KernelIdeal.Facts₀.shapeCasts_S192_S1x192) (shapeCast Cert.KernelIdeal.S1x192 x6 Cert.KernelIdeal.Facts₀.shapeCasts_S192_S1x192)
    (transpose Cert.KernelIdeal.S64x256 [1, 0] x7 Cert.KernelIdeal.Facts₀.transposes_S256x64_S64x256_1_0) (transpose Cert.KernelIdeal.S64x256 [1, 0] x8 Cert.KernelIdeal.Facts₀.transposes_S256x64_S64x256_1_0)
    (shapeCast Cert.KernelIdeal.S1x256 x9 Cert.KernelIdeal.Facts₀.shapeCasts_S256_S1x256) (shapeCast Cert.KernelIdeal.S1x256 x10 Cert.KernelIdeal.Facts₀.shapeCasts_S256_S1x256)

/-- Every node's cell state, as a [nodes, 64] array. -/
def c1Of : (⟨Cert.KernelIdeal.S100000x64, .f32⟩ : BufTy).Contents (Elt Ideal) :=
  C1S (Cert.KernelIdeal.Mid.mid (convS x0 x2) x1 x15) x0
    (shapeCast Cert.KernelIdeal.S100000x64 x13 Cert.KernelIdeal.Facts₀.shapeCasts_S1x100000x64_S100000x64) (shapeCast Cert.KernelIdeal.S100000x64 x14 Cert.KernelIdeal.Facts₀.shapeCasts_S1x100000x64_S100000x64)
    (transpose Cert.KernelIdeal.S64x192 [1, 0] x3 Cert.KernelIdeal.Facts₀.transposes_S192x64_S64x192_1_0) (transpose Cert.KernelIdeal.S64x192 [1, 0] x4 Cert.KernelIdeal.Facts₀.transposes_S192x64_S64x192_1_0)
    (shapeCast Cert.KernelIdeal.S1x192 x5 Cert.KernelIdeal.Facts₀.shapeCasts_S192_S1x192) (shapeCast Cert.KernelIdeal.S1x192 x6 Cert.KernelIdeal.Facts₀.shapeCasts_S192_S1x192)
    (transpose Cert.KernelIdeal.S64x256 [1, 0] x7 Cert.KernelIdeal.Facts₀.transposes_S256x64_S64x256_1_0) (transpose Cert.KernelIdeal.S64x256 [1, 0] x8 Cert.KernelIdeal.Facts₀.transposes_S256x64_S64x256_1_0)
    (shapeCast Cert.KernelIdeal.S1x256 x9 Cert.KernelIdeal.Facts₀.shapeCasts_S256_S1x256) (shapeCast Cert.KernelIdeal.S1x256 x10 Cert.KernelIdeal.Facts₀.shapeCasts_S256_S1x256)

/-- A [nodes, 64] array given the leading unit axis the two state results carry. -/
def lead (y : (⟨Cert.KernelIdeal.S100000x64, .f32⟩ : BufTy).Contents (Elt Ideal)) : (⟨Cert.KernelIdeal.S1x100000x64, .f32⟩ : BufTy).Contents (Elt Ideal) :=
  broadcastInDim Cert.KernelIdeal.S1x100000x64 ![1, 2] Cert.KernelIdeal.Facts₀.bcast_S100000x64_S1x100000x64_1_2 y

/-! ## Meeting the result functions: arrays that are the prepared ones give the result functions -/

/-- The specification's output of arrays equal to the prepared ones is `outOf` of the arguments. -/
theorem outOf_intro {agg xx hp cp : Mat 100000 64} {w4 w5 : Mat 64 192} {w6 w7 : Mat 1 192} {w8 w9 : Mat 64 256} {w10 w11 : Mat 1 256} {w12 : Mat 64 12} {w13 : Mat 1 12}
    (hagg : agg = Cert.KernelIdeal.Mid.mid (convS x0 x2) x1 x15) (hx : xx = x0)
    (hhp : hp = shapeCast Cert.KernelIdeal.S100000x64 x13 Cert.KernelIdeal.Facts₀.shapeCasts_S1x100000x64_S100000x64)
    (hcp : cp = shapeCast Cert.KernelIdeal.S100000x64 x14 Cert.KernelIdeal.Facts₀.shapeCasts_S1x100000x64_S100000x64)
    (h4 : w4 = transpose Cert.KernelIdeal.S64x192 [1, 0] x3 Cert.KernelIdeal.Facts₀.transposes_S192x64_S64x192_1_0)
    (h5 : w5 = transpose Cert.KernelIdeal.S64x192 [1, 0] x4 Cert.KernelIdeal.Facts₀.transposes_S192x64_S64x192_1_0)
    (h6 : w6 = shapeCast Cert.KernelIdeal.S1x192 x5 Cert.KernelIdeal.Facts₀.shapeCasts_S192_S1x192)
    (h7 : w7 = shapeCast Cert.KernelIdeal.S1x192 x6 Cert.KernelIdeal.Facts₀.shapeCasts_S192_S1x192)
    (h8 : w8 = transpose Cert.KernelIdeal.S64x256 [1, 0] x7 Cert.KernelIdeal.Facts₀.transposes_S256x64_S64x256_1_0)
    (h9 : w9 = transpose Cert.KernelIdeal.S64x256 [1, 0] x8 Cert.KernelIdeal.Facts₀.transposes_S256x64_S64x256_1_0)
    (h10 : w10 = shapeCast Cert.KernelIdeal.S1x256 x9 Cert.KernelIdeal.Facts₀.shapeCasts_S256_S1x256)
    (h11 : w11 = shapeCast Cert.KernelIdeal.S1x256 x10 Cert.KernelIdeal.Facts₀.shapeCasts_S256_S1x256)
    (h12 : w12 = transpose Cert.KernelIdeal.S64x12 [1, 0] x11 Cert.KernelIdeal.Facts₀.transposes_S12x64_S64x12_1_0)
    (h13 : w13 = shapeCast Cert.KernelIdeal.S1x12 x12 Cert.KernelIdeal.Facts₀.shapeCasts_S12_S1x12) :
    OutS agg xx hp cp w4 w5 w6 w7 w8 w9 w10 w11 w12 w13 = outOf x0 x1 x2 x3 x4 x5 x6 x7 x8 x9 x10 x11 x12 x13 x14 x15 := by
  subst hagg hx hhp hcp h4 h5 h6 h7 h8 h9 h10 h11 h12 h13
  rfl

/-- The same for the hidden state. -/
theorem h1Of_intro {agg xx hp cp : Mat 100000 64} {w4 w5 : Mat 64 192} {w6 w7 : Mat 1 192} {w8 w9 : Mat 64 256} {w10 w11 : Mat 1 256}
    (hagg : agg = Cert.KernelIdeal.Mid.mid (convS x0 x2) x1 x15) (hx : xx = x0)
    (hhp : hp = shapeCast Cert.KernelIdeal.S100000x64 x13 Cert.KernelIdeal.Facts₀.shapeCasts_S1x100000x64_S100000x64)
    (hcp : cp = shapeCast Cert.KernelIdeal.S100000x64 x14 Cert.KernelIdeal.Facts₀.shapeCasts_S1x100000x64_S100000x64)
    (h4 : w4 = transpose Cert.KernelIdeal.S64x192 [1, 0] x3 Cert.KernelIdeal.Facts₀.transposes_S192x64_S64x192_1_0)
    (h5 : w5 = transpose Cert.KernelIdeal.S64x192 [1, 0] x4 Cert.KernelIdeal.Facts₀.transposes_S192x64_S64x192_1_0)
    (h6 : w6 = shapeCast Cert.KernelIdeal.S1x192 x5 Cert.KernelIdeal.Facts₀.shapeCasts_S192_S1x192)
    (h7 : w7 = shapeCast Cert.KernelIdeal.S1x192 x6 Cert.KernelIdeal.Facts₀.shapeCasts_S192_S1x192)
    (h8 : w8 = transpose Cert.KernelIdeal.S64x256 [1, 0] x7 Cert.KernelIdeal.Facts₀.transposes_S256x64_S64x256_1_0)
    (h9 : w9 = transpose Cert.KernelIdeal.S64x256 [1, 0] x8 Cert.KernelIdeal.Facts₀.transposes_S256x64_S64x256_1_0)
    (h10 : w10 = shapeCast Cert.KernelIdeal.S1x256 x9 Cert.KernelIdeal.Facts₀.shapeCasts_S256_S1x256)
    (h11 : w11 = shapeCast Cert.KernelIdeal.S1x256 x10 Cert.KernelIdeal.Facts₀.shapeCasts_S256_S1x256) :
    H1S agg xx hp cp w4 w5 w6 w7 w8 w9 w10 w11 = h1Of x0 x1 x2 x3 x4 x5 x6 x7 x8 x9 x10 x13 x14 x15 := by
  subst hagg hx hhp hcp h4 h5 h6 h7 h8 h9 h10 h11
  rfl

/-- The same for the cell state. -/
theorem c1Of_intro {agg xx hp cp : Mat 100000 64} {w4 w5 : Mat 64 192} {w6 w7 : Mat 1 192} {w8 w9 : Mat 64 256} {w10 w11 : Mat 1 256}
    (hagg : agg = Cert.KernelIdeal.Mid.mid (convS x0 x2) x1 x15) (hx : xx = x0)
    (hhp : hp = shapeCast Cert.KernelIdeal.S100000x64 x13 Cert.KernelIdeal.Facts₀.shapeCasts_S1x100000x64_S100000x64)
    (hcp : cp = shapeCast Cert.KernelIdeal.S100000x64 x14 Cert.KernelIdeal.Facts₀.shapeCasts_S1x100000x64_S100000x64)
    (h4 : w4 = transpose Cert.KernelIdeal.S64x192 [1, 0] x3 Cert.KernelIdeal.Facts₀.transposes_S192x64_S64x192_1_0)
    (h5 : w5 = transpose Cert.KernelIdeal.S64x192 [1, 0] x4 Cert.KernelIdeal.Facts₀.transposes_S192x64_S64x192_1_0)
    (h6 : w6 = shapeCast Cert.KernelIdeal.S1x192 x5 Cert.KernelIdeal.Facts₀.shapeCasts_S192_S1x192)
    (h7 : w7 = shapeCast Cert.KernelIdeal.S1x192 x6 Cert.KernelIdeal.Facts₀.shapeCasts_S192_S1x192)
    (h8 : w8 = transpose Cert.KernelIdeal.S64x256 [1, 0] x7 Cert.KernelIdeal.Facts₀.transposes_S256x64_S64x256_1_0)
    (h9 : w9 = transpose Cert.KernelIdeal.S64x256 [1, 0] x8 Cert.KernelIdeal.Facts₀.transposes_S256x64_S64x256_1_0)
    (h10 : w10 = shapeCast Cert.KernelIdeal.S1x256 x9 Cert.KernelIdeal.Facts₀.shapeCasts_S256_S1x256)
    (h11 : w11 = shapeCast Cert.KernelIdeal.S1x256 x10 Cert.KernelIdeal.Facts₀.shapeCasts_S256_S1x256) :
    C1S agg xx hp cp w4 w5 w6 w7 w8 w9 w10 w11 = c1Of x0 x1 x2 x3 x4 x5 x6 x7 x8 x9 x10 x13 x14 x15 := by
  subst hagg hx hhp hcp h4 h5 h6 h7 h8 h9 h10 h11
  rfl

end Cert.Results

end
-- ==== Proof.KerValue.lean ====
/-
  The kernel program's run with its three results as functions of the arguments: the named run, each boundary's
  contents read back through the host stretches and the two regions' output arrays to the launch memory.
-/
import proofs.«162048_j1778116460895_1_alg».proof.Proof.KerRun
import proofs.«162048_j1778116460895_1_alg».proof.Proof.KerHost
import proofs.«162048_j1778116460895_1_alg».proof.Proof.KerBlocks
import proofs.«162048_j1778116460895_1_alg».proof.Proof.Results

set_option maxRecDepth 16384

noncomputable section

open Idealize.ShloMosaic Idealize.ShloMosaic.TcCoe Idealize.SL.Sem

namespace Cert.KernelIdeal.RunValue

open Cert.KernelIdeal Cert.KernelIdeal.Gen Cert.Results

variable (m : (ℓ : Loc nD τ sig) → Buf (Elt Ideal) ℓ) (ρ : Dev nD → PrngReg)

/-- What region 1 finds as aggregated messages: the shared edge stretch of the plain projection of the launched
    features by the launched weight (region 0's output array), of the edge weights and of the edge list. -/
theorem agg_eq (c : Dev nD) :
    V3 m ρ c main_v27 = Cert.KernelIdeal.Mid.mid (Cert.Spec.convS (m ((c : Thread nD τ).loc main_arg0)) (m ((c : Thread nD τ).loc main_arg2))) (m ((c : Thread nD τ).loc main_arg1)) (m ((c : Thread nD τ).loc main_arg15)) :=
  (HostValue.V3_v27 m ρ c).trans
    (congrArg (fun M : (⟨S100000x64, .f32⟩ : BufTy).Contents (Elt Ideal) => Cert.KernelIdeal.Mid.mid M (m ((c : Thread nD τ).loc main_arg1)) (m ((c : Thread nD τ).loc main_arg15)))
      ((HostValue.V2_v4 m ρ c).trans ((Blocks.conv_final (V1 m ρ) c).trans
        (congrArg₂ (fun (a : Cert.Spec.Mat 100000 64) (b : Cert.Spec.Mat 64 64) => Cert.Spec.convS a b) (HostValue.V1_arg0 m ρ c) (HostValue.V1_arg2 m ρ c)))))

/-- The output buffer after the last stretch is every node's output head of the launched arguments. -/
theorem out_eq (c : Dev nD) : W5 m ρ c (Proc.devRef .tc main_v40_0) = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (HostValue.W5_v40_0 m ρ c).trans ((Blocks.out_final (V3 m ρ) c).trans
    (outOf_intro (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      (agg_eq m ρ c) (HostValue.V3_arg0 m ρ c) (HostValue.V3_v28 m ρ c) (HostValue.V3_v29 m ρ c) (HostValue.V3_v30 m ρ c) (HostValue.V3_v31 m ρ c)
      (HostValue.V3_v35 m ρ c) (HostValue.V3_v36 m ρ c) (HostValue.V3_v32 m ρ c) (HostValue.V3_v33 m ρ c) (HostValue.V3_v37 m ρ c) (HostValue.V3_v38 m ρ c)
      (HostValue.V3_v34 m ρ c) (HostValue.V3_v39 m ρ c)))

/-- The second result is every node's hidden state, with its leading unit axis. -/
theorem h1_eq (c : Dev nD) : W5 m ρ c (Proc.devRef .tc main_v41) = lead (h1Of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) :=
  (HostValue.W5_v41 m ρ c).trans (congrArg lead ((Blocks.h1_final (V3 m ρ) c).trans
    (h1Of_intro (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))
      (agg_eq m ρ c) (HostValue.V3_arg0 m ρ c) (HostValue.V3_v28 m ρ c) (HostValue.V3_v29 m ρ c) (HostValue.V3_v30 m ρ c) (HostValue.V3_v31 m ρ c)
      (HostValue.V3_v35 m ρ c) (HostValue.V3_v36 m ρ c) (HostValue.V3_v32 m ρ c) (HostValue.V3_v33 m ρ c) (HostValue.V3_v37 m ρ c) (HostValue.V3_v38 m ρ c))))

/-- The third result is every node's cell state, with its leading unit axis. -/
theorem c1_eq (c : Dev nD) : W5 m ρ c (Proc.devRef .tc main_v42) = lead (c1Of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))) :=
  (HostValue.W5_v42 m ρ c).trans (congrArg lead ((Blocks.c1_final (V3 m ρ) c).trans
    (c1Of_intro (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) (m ((c : Thread nD τ).loc main_arg15))
      (agg_eq m ρ c) (HostValue.V3_arg0 m ρ c) (HostValue.V3_v28 m ρ c) (HostValue.V3_v29 m ρ c) (HostValue.V3_v30 m ρ c) (HostValue.V3_v31 m ρ c)
      (HostValue.V3_v35 m ρ c) (HostValue.V3_v36 m ρ c) (HostValue.V3_v32 m ρ c) (HostValue.V3_v33 m ρ c) (HostValue.V3_v37 m ρ c) (HostValue.V3_v38 m ρ c))))

/-- The run: every weakly fair execution terminates without a fault, the three results at the specification's
    functions of the launched arguments, the arguments unchanged. -/
theorem run : θ_run defs (onTc (τ := τ) (main (F := Ideal))) ⟨m, fun _ => 0, ρ⟩ (fun r => ∀ c : Dev nD,
      r.2.mem ((c.tc : Thread nD τ).loc main_v40_0) = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v41) = lead (h1Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)))
      ∧ r.2.mem ((c.tc : Thread nD τ).loc main_v42) = lead (c1Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (out_eq m ρ c), (h c).2.1.trans (h1_eq m ρ c), (h c).2.2.1.trans (c1_eq m ρ c), (h c).2.2.2⟩)
    (run_named m ρ)

end Cert.KernelIdeal.RunValue

end
-- ==== Proof.RefGen.lean ====
/-
  The reference program's run and its operations read at an index: the two modules this certificate's
  reference side is written over, gathered under one name.
-/
import proofs.«162048_j1778116460895_1_alg».proof.Proof.Gen.ReferenceIdeal.Run
import proofs.«162048_j1778116460895_1_alg».proof.Proof.Gen.ReferenceIdeal.Read
-- ==== Proof.RefCell.lean ====
/-
  The reference program's three results, read at a node: the specification's cell functions of that node's rows of the
  aggregated messages, the features and the previous state, with the weights as the reference itself transposes them.
-/
import proofs.«162048_j1778116460895_1_alg».proof.Proof.RefGen
import proofs.«162048_j1778116460895_1_alg».proof.Proof.Spec

noncomputable section

open scoped BigOperators
open Idealize.ShloMosaic Idealize.ShloMosaic.ValueIdx

namespace Cert.ReferenceIdeal.RefValue

open Cert.ReferenceIdeal Cert.ReferenceIdeal.Read Cert.Spec

variable (x0 : (⟨S100000x64, .f32⟩ : BufTy).Contents (Elt Ideal)) (x1 : (⟨S1600000, .f32⟩ : BufTy).Contents (Elt Ideal)) (x2 : (⟨S64x64, .f32⟩ : BufTy).Contents (Elt Ideal))
  (x3 x4 : (⟨S192x64, .f32⟩ : BufTy).Contents (Elt Ideal)) (x5 x6 : (⟨S192, .f32⟩ : BufTy).Contents (Elt Ideal)) (x7 x8 : (⟨S256x64, .f32⟩ : BufTy).Contents (Elt Ideal)) (x9 x10 : (⟨S256, .f32⟩ : BufTy).Contents (Elt Ideal))
  (x11 : (⟨S12x64, .f32⟩ : BufTy).Contents (Elt Ideal)) (x12 : (⟨S12, .f32⟩ : BufTy).Contents (Elt Ideal)) (x13 x14 : (⟨S1x100000x64, .f32⟩ : BufTy).Contents (Elt Ideal)) (x15 : (⟨S2x1600000, .i32⟩ : BufTy).Contents (Elt Ideal))

/-- A row's entry is the matrix's entry. -/
theorem rowOf_apply {R : ℕ} (A : Mat R 64) (r : Fin R) (k : Fin 64) : rowOf A r k = A (ix2 r k) := rfl

/-! ## The composed index maps at an index given by its coordinates -/

theorem lidx28 (r : Fin 100000) (j : Fin 192) (k : Fin 64) : lidx_main_v28 (ix2 r j) k = ix2 r k :=
  funext fun a => Fin.ext (by match a with | ⟨0, _⟩ => rfl | ⟨1, _⟩ => rfl)
theorem ridx28 (r : Fin 100000) (j : Fin 192) (k : Fin 64) : ridx_main_v28 (ix2 r j) k = ix2 k j :=
  funext fun a => Fin.ext (by match a with | ⟨0, _⟩ => rfl | ⟨1, _⟩ => rfl)
theorem idx30 (r : Fin 100000) (j : Fin 192) : idx_main_v30 (ix2 r j) = ix2 0 j :=
  funext fun a => Fin.ext (by match a with | ⟨0, _⟩ => rfl | ⟨1, _⟩ => rfl)
theorem lidx33 (r : Fin 100000) (j : Fin 192) (k : Fin 64) : lidx_main_v33 (ix2 r j) k = ix2 r k :=
  funext fun a => Fin.ext (by match a with | ⟨0, _⟩ => rfl | ⟨1, _⟩ => rfl)
theorem ridx33 (r : Fin 100000) (j : Fin 192) (k : Fin 64) : ridx_main_v33 (ix2 r j) k = ix2 k j :=
  funext fun a => Fin.ext (by match a with | ⟨0, _⟩ => rfl | ⟨1, _⟩ => rfl)
theorem idx35 (r : Fin 100000) (j : Fin 192) : idx_main_v35 (ix2 r j) = ix2 0 j :=
  funext fun a => Fin.ext (by match a with | ⟨0, _⟩ => rfl | ⟨1, _⟩ => rfl)

/-! ## The GRU cell, stage by stage, at node `r` -/

/-- The input-side pre-activations: the affine map of the node's aggregated message. -/
theorem gi_apply (r : Fin 100000) (j : Fin 192) :
    val_main_v31 (F := Ideal) x0 x1 x2 x3 x5 x15 (ix2 r j) = lin (rowOf (val_main_v26 (F := Ideal) x0 x1 x2 x15) r) (val_main_v27 (F := Ideal) x3) (val_main_v29 (F := Ideal) x5) j := by
  rw [val_main_v31_apply, val_main_v28_apply, val_main_v30_apply, idx30]
  unfold lin rowOf
  simp only [Ideal.addf_def, lidx28, ridx28]

/-- The hidden-side pre-activations: the affine map of the node's feature row. -/
theorem gh_apply (r : Fin 100000) (j : Fin 192) :
    val_main_v36 (F := Ideal) x0 x4 x6 (ix2 r j) = lin (rowOf x0 r) (val_main_v32 (F := Ideal) x4) (val_main_v34 (F := Ideal) x6) j := by
  rw [val_main_v36_apply, val_main_v33_apply, val_main_v35_apply, idx35]
  unfold lin rowOf
  simp only [Ideal.addf_def, lidx33, ridx33]

/-- Columns 0 to 63 of the 192-wide array, at node `r`. -/
theorem gi_reset (r : Fin 100000) (q : Fin 64) :
    val_main_v37 (F := Ideal) x0 x1 x2 x3 x5 x15 (ix2 r q) = sl 0 (by omega) (lin (rowOf (val_main_v26 (F := Ideal) x0 x1 x2 x15) r) (val_main_v27 (F := Ideal) x3) (val_main_v29 (F := Ideal) x5)) q := by
  have e : idx_main_v37 (ix2 r q) = ix2 r (⟨0 + q.val, by omega⟩ : Fin 192) :=
    funext fun a => Fin.ext (by match a with | ⟨0, _⟩ => rfl | ⟨1, _⟩ => exact (Nat.zero_add _).symm)
  rw [val_main_v37_apply, e, gi_apply]
  rfl
/-- Columns 64 to 127 of the 192-wide array, at node `r`. -/
theorem gi_update (r : Fin 100000) (q : Fin 64) :
    val_main_v38 (F := Ideal) x0 x1 x2 x3 x5 x15 (ix2 r q) = sl 64 (by omega) (lin (rowOf (val_main_v26 (F := Ideal) x0 x1 x2 x15) r) (val_main_v27 (F := Ideal) x3) (val_main_v29 (F := Ideal) x5)) q := by
  have e : idx_main_v38 (ix2 r q) = ix2 r (⟨64 + q.val, by omega⟩ : Fin 192) :=
    funext fun a => Fin.ext (by match a with | ⟨0, _⟩ => rfl | ⟨1, _⟩ => rfl)
  rw [val_main_v38_apply, e, gi_apply]
  rfl
/-- Columns 128 to 191 of the 192-wide array, at node `r`. -/
theorem gi_new (r : Fin 100000) (q : Fin 64) :
    val_main_v39 (F := Ideal) x0 x1 x2 x3 x5 x15 (ix2 r q) = sl 128 (by omega) (lin (rowOf (val_main_v26 (F := Ideal) x0 x1 x2 x15) r) (val_main_v27 (F := Ideal) x3) (val_main_v29 (F := Ideal) x5)) q := by
  have e : idx_main_v39 (ix2 r q) = ix2 r (⟨128 + q.val, by omega⟩ : Fin 192) :=
    funext fun a => Fin.ext (by match a with | ⟨0, _⟩ => rfl | ⟨1, _⟩ => rfl)
  rw [val_main_v39_apply, e, gi_apply]
  rfl
/-- Columns 0 to 63 of the 192-wide array, at node `r`. -/
theorem gh_reset (r : Fin 100000) (q : Fin 64) :
    val_main_v40 (F := Ideal) x0 x4 x6 (ix2 r q) = sl 0 (by omega) (lin (rowOf x0 r) (val_main_v32 (F := Ideal) x4) (val_main_v34 (F := Ideal) x6)) q := by
  have e : idx_main_v40 (ix2 r q) = ix2 r (⟨0 + q.val, by omega⟩ : Fin 192) :=
    funext fun a => Fin.ext (by match a with | ⟨0, _⟩ => rfl | ⟨1, _⟩ => exact (Nat.zero_add _).symm)
  rw [val_main_v40_apply, e, gh_apply]
  rfl
/-- Columns 64 to 127 of the 192-wide array, at node `r`. -/
theorem gh_update (r : Fin 100000) (q : Fin 64) :
    val_main_v41 (F := Ideal) x0 x4 x6 (ix2 r q) = sl 64 (by omega) (lin (rowOf x0 r) (val_main_v32 (F := Ideal) x4) (val_main_v34 (F := Ideal) x6)) q := by
  have e : idx_main_v41 (ix2 r q) = ix2 r (⟨64 + q.val, by omega⟩ : Fin 192) :=
    funext fun a => Fin.ext (by match a with | ⟨0, _⟩ => rfl | ⟨1, _⟩ => rfl)
  rw [val_main_v41_apply, e, gh_apply]
  rfl
/-- Columns 128 to 191 of the 192-wide array, at node `r`. -/
theorem gh_new (r : Fin 100000) (q : Fin 64) :
    val_main_v42 (F := Ideal) x0 x4 x6 (ix2 r q) = sl 128 (by omega) (lin (rowOf x0 r) (val_main_v32 (F := Ideal) x4) (val_main_v34 (F := Ideal) x6)) q := by
  have e : idx_main_v42 (ix2 r q) = ix2 r (⟨128 + q.val, by omega⟩ : Fin 192) :=
    funext fun a => Fin.ext (by match a with | ⟨0, _⟩ => rfl | ⟨1, _⟩ => rfl)
  rw [val_main_v42_apply, e, gh_apply]
  rfl

/-- The reset gate r = σ(gi₀ + gh₀). -/
theorem reset_apply (r : Fin 100000) (q : Fin 64) :
    val_main_v49 (F := Ideal) x0 x1 x2 x3 x4 x5 x6 x15 (ix2 r q) = Spec.sig (sl 0 (by omega) (lin (rowOf (val_main_v26 (F := Ideal) x0 x1 x2 x15) r) (val_main_v27 (F := Ideal) x3) (val_main_v29 (F := Ideal) x5)) q + sl 0 (by omega) (lin (rowOf x0 r) (val_main_v32 (F := Ideal) x4) (val_main_v34 (F := Ideal) x6)) q) := by
  rewrite [val_main_v49_apply, val_main_v48_apply, val_main_cst_5_apply, val_main_v47_apply, val_main_v46_apply, val_main_cst_4_apply, val_main_v45_apply, val_main_v44_apply, val_main_v43_apply, gi_reset, gh_reset]
  unfold Spec.sig
  simp only [Ideal.addf_def, Ideal.subf_def, Ideal.mulf_def, Ideal.hostDivf_def, Ideal.hostNegf_def, Ideal.negf_def, Ideal.hostUnary_exp_def, Ideal.hostUnary_tanh_def, Ideal.maximumf_def, Ideal.ofBits_def]

/-- The update gate z = σ(gi₁ + gh₁). -/
theorem update_apply (r : Fin 100000) (q : Fin 64) :
    val_main_v56 (F := Ideal) x0 x1 x2 x3 x4 x5 x6 x15 (ix2 r q) = Spec.sig (sl 64 (by omega) (lin (rowOf (val_main_v26 (F := Ideal) x0 x1 x2 x15) r) (val_main_v27 (F := Ideal) x3) (val_main_v29 (F := Ideal) x5)) q + sl 64 (by omega) (lin (rowOf x0 r) (val_main_v32 (F := Ideal) x4) (val_main_v34 (F := Ideal) x6)) q) := by
  rewrite [val_main_v56_apply, val_main_v55_apply, val_main_cst_7_apply, val_main_v54_apply, val_main_v53_apply, val_main_cst_6_apply, val_main_v52_apply, val_main_v51_apply, val_main_v50_apply, gi_update, gh_update]
  unfold Spec.sig
  simp only [Ideal.addf_def, Ideal.subf_def, Ideal.mulf_def, Ideal.hostDivf_def, Ideal.hostNegf_def, Ideal.negf_def, Ideal.hostUnary_exp_def, Ideal.hostUnary_tanh_def, Ideal.maximumf_def, Ideal.ofBits_def]

/-- The candidate n = tanh(gi₂ + r·gh₂). -/
theorem new_apply (r : Fin 100000) (q : Fin 64) :
    val_main_v59 (F := Ideal) x0 x1 x2 x3 x4 x5 x6 x15 (ix2 r q) = Ideal.tanh (sl 128 (by omega) (lin (rowOf (val_main_v26 (F := Ideal) x0 x1 x2 x15) r) (val_main_v27 (F := Ideal) x3) (val_main_v29 (F := Ideal) x5)) q
      + Spec.sig (sl 0 (by omega) (lin (rowOf (val_main_v26 (F := Ideal) x0 x1 x2 x15) r) (val_main_v27 (F := Ideal) x3) (val_main_v29 (F := Ideal) x5)) q + sl 0 (by omega) (lin (rowOf x0 r) (val_main_v32 (F := Ideal) x4) (val_main_v34 (F := Ideal) x6)) q) * sl 128 (by omega) (lin (rowOf x0 r) (val_main_v32 (F := Ideal) x4) (val_main_v34 (F := Ideal) x6)) q) := by
  rewrite [val_main_v59_apply, val_main_v58_apply, val_main_v57_apply, reset_apply, gi_new, gh_new]
  simp only [Ideal.addf_def, Ideal.subf_def, Ideal.mulf_def, Ideal.hostDivf_def, Ideal.hostNegf_def, Ideal.negf_def, Ideal.hostUnary_exp_def, Ideal.hostUnary_tanh_def, Ideal.maximumf_def, Ideal.ofBits_def]

/-- The GRU cell's new state h̃ = (1 − z)·n + z·x. -/
theorem hTilde_apply (r : Fin 100000) (q : Fin 64) :
    val_main_v64 (F := Ideal) x0 x1 x2 x3 x4 x5 x6 x15 (ix2 r q) = hTilde (rowOf (val_main_v26 (F := Ideal) x0 x1 x2 x15) r) (rowOf x0 r) (val_main_v27 (F := Ideal) x3) (val_main_v32 (F := Ideal) x4) (val_main_v29 (F := Ideal) x5) (val_main_v34 (F := Ideal) x6) q := by
  rewrite [val_main_v64_apply, val_main_v62_apply, val_main_v63_apply, val_main_v61_apply, val_main_v60_apply, val_main_cst_8_apply, update_apply, new_apply]
  unfold hTilde
  simp only [Ideal.addf_def, Ideal.subf_def, Ideal.mulf_def, Ideal.hostDivf_def, Ideal.hostNegf_def, Ideal.negf_def, Ideal.hostUnary_exp_def, Ideal.hostUnary_tanh_def, Ideal.maximumf_def, Ideal.ofBits_def, rowOf_apply]

/-! ## The LSTM cell and the output head at node `r` -/

theorem lidx68 (r : Fin 100000) (j : Fin 256) (k : Fin 64) : lidx_main_v68 (ix2 r j) k = ix2 r k :=
  funext fun a => Fin.ext (by match a with | ⟨0, _⟩ => rfl | ⟨1, _⟩ => rfl)
theorem ridx68 (r : Fin 100000) (j : Fin 256) (k : Fin 64) : ridx_main_v68 (ix2 r j) k = ix2 k j :=
  funext fun a => Fin.ext (by match a with | ⟨0, _⟩ => rfl | ⟨1, _⟩ => rfl)
theorem idx70 (r : Fin 100000) (j : Fin 256) : idx_main_v70 (ix2 r j) = ix2 0 j :=
  funext fun a => Fin.ext (by match a with | ⟨0, _⟩ => rfl | ⟨1, _⟩ => rfl)
theorem lidx73 (r : Fin 100000) (j : Fin 256) (k : Fin 64) : lidx_main_v73 (ix2 r j) k = ix2 r k :=
  funext fun a => Fin.ext (by match a with | ⟨0, _⟩ => rfl | ⟨1, _⟩ => rfl)
theorem ridx73 (r : Fin 100000) (j : Fin 256) (k : Fin 64) : ridx_main_v73 (ix2 r j) k = ix2 k j :=
  funext fun a => Fin.ext (by match a with | ⟨0, _⟩ => rfl | ⟨1, _⟩ => rfl)
theorem idx76 (r : Fin 100000) (j : Fin 256) : idx_main_v76 (ix2 r j) = ix2 0 j :=
  funext fun a => Fin.ext (by match a with | ⟨0, _⟩ => rfl | ⟨1, _⟩ => rfl)
theorem lidx108 (r : Fin 100000) (j : Fin 12) (k : Fin 64) : lidx_main_v108 (ix2 r j) k = ix2 r k :=
  funext fun a => Fin.ext (by match a with | ⟨0, _⟩ => rfl | ⟨1, _⟩ => rfl)
theorem ridx108 (r : Fin 100000) (j : Fin 12) (k : Fin 64) : ridx_main_v108 (ix2 r j) k = ix2 k j :=
  funext fun a => Fin.ext (by match a with | ⟨0, _⟩ => rfl | ⟨1, _⟩ => rfl)
theorem idx110 (r : Fin 100000) (j : Fin 12) : idx_main_v110 (ix2 r j) = ix2 0 j :=
  funext fun a => Fin.ext (by match a with | ⟨0, _⟩ => rfl | ⟨1, _⟩ => rfl)

/-- The four gate pre-activations: ((h̃·LWih + lbih) + hp·LWhh) + lbhh. -/
theorem gates_apply (r : Fin 100000) (j : Fin 256) :
    val_main_v77 (F := Ideal) x0 x1 x2 x3 x4 x5 x6 x7 x8 x9 x10 x13 x15 (ix2 r j) = gates (rowOf (val_main_v26 (F := Ideal) x0 x1 x2 x15) r) (rowOf x0 r) (rowOf (val_main_v65 (F := Ideal) x13) r) (val_main_v27 (F := Ideal) x3) (val_main_v32 (F := Ideal) x4) (val_main_v29 (F := Ideal) x5) (val_main_v34 (F := Ideal) x6) (val_main_v67 (F := Ideal) x7) (val_main_v72 (F := Ideal) x8) (val_main_v69 (F := Ideal) x9) (val_main_v75 (F := Ideal) x10) j := by
  rewrite [val_main_v77_apply, val_main_v74_apply, val_main_v71_apply, val_main_v68_apply, val_main_v70_apply, val_main_v73_apply, val_main_v76_apply, idx70, idx76]
  unfold gates
  simp only [Ideal.addf_def, lidx68, ridx68, lidx73, ridx73, hTilde_apply, rowOf_apply]

/-- Columns 0 to 63 of the 256-wide array, at node `r`. -/
theorem gates_input (r : Fin 100000) (q : Fin 64) :
    val_main_v78 (F := Ideal) x0 x1 x2 x3 x4 x5 x6 x7 x8 x9 x10 x13 x15 (ix2 r q) = sl 0 (by omega) (gates (rowOf (val_main_v26 (F := Ideal) x0 x1 x2 x15) r) (rowOf x0 r) (rowOf (val_main_v65 (F := Ideal) x13) r) (val_main_v27 (F := Ideal) x3) (val_main_v32 (F := Ideal) x4) (val_main_v29 (F := Ideal) x5) (val_main_v34 (F := Ideal) x6) (val_main_v67 (F := Ideal) x7) (val_main_v72 (F := Ideal) x8) (val_main_v69 (F := Ideal) x9) (val_main_v75 (F := Ideal) x10)) q := by
  have e : idx_main_v78 (ix2 r q) = ix2 r (⟨0 + q.val, by omega⟩ : Fin 256) :=
    funext fun a => Fin.ext (by match a with | ⟨0, _⟩ => rfl | ⟨1, _⟩ => exact (Nat.zero_add _).symm)
  rw [val_main_v78_apply, e, gates_apply]
  rfl
/-- Columns 64 to 127 of the 256-wide array, at node `r`. -/
theorem gates_forget (r : Fin 100000) (q : Fin 64) :
    val_main_v79 (F := Ideal) x0 x1 x2 x3 x4 x5 x6 x7 x8 x9 x10 x13 x15 (ix2 r q) = sl 64 (by omega) (gates (rowOf (val_main_v26 (F := Ideal) x0 x1 x2 x15) r) (rowOf x0 r) (rowOf (val_main_v65 (F := Ideal) x13) r) (val_main_v27 (F := Ideal) x3) (val_main_v32 (F := Ideal) x4) (val_main_v29 (F := Ideal) x5) (val_main_v34 (F := Ideal) x6) (val_main_v67 (F := Ideal) x7) (val_main_v72 (F := Ideal) x8) (val_main_v69 (F := Ideal) x9) (val_main_v75 (F := Ideal) x10)) q := by
  have e : idx_main_v79 (ix2 r q) = ix2 r (⟨64 + q.val, by omega⟩ : Fin 256) :=
    funext fun a => Fin.ext (by match a with | ⟨0, _⟩ => rfl | ⟨1, _⟩ => rfl)
  rw [val_main_v79_apply, e, gates_apply]
  rfl
/-- Columns 128 to 191 of the 256-wide array, at node `r`. -/
theorem gates_cell (r : Fin 100000) (q : Fin 64) :
    val_main_v80 (F := Ideal) x0 x1 x2 x3 x4 x5 x6 x7 x8 x9 x10 x13 x15 (ix2 r q) = sl 128 (by omega) (gates (rowOf (val_main_v26 (F := Ideal) x0 x1 x2 x15) r) (rowOf x0 r) (rowOf (val_main_v65 (F := Ideal) x13) r) (val_main_v27 (F := Ideal) x3) (val_main_v32 (F := Ideal) x4) (val_main_v29 (F := Ideal) x5) (val_main_v34 (F := Ideal) x6) (val_main_v67 (F := Ideal) x7) (val_main_v72 (F := Ideal) x8) (val_main_v69 (F := Ideal) x9) (val_main_v75 (F := Ideal) x10)) q := by
  have e : idx_main_v80 (ix2 r q) = ix2 r (⟨128 + q.val, by omega⟩ : Fin 256) :=
    funext fun a => Fin.ext (by match a with | ⟨0, _⟩ => rfl | ⟨1, _⟩ => rfl)
  rw [val_main_v80_apply, e, gates_apply]
  rfl
/-- Columns 192 to 255 of the 256-wide array, at node `r`. -/
theorem gates_output (r : Fin 100000) (q : Fin 64) :
    val_main_v81 (F := Ideal) x0 x1 x2 x3 x4 x5 x6 x7 x8 x9 x10 x13 x15 (ix2 r q) = sl 192 (by omega) (gates (rowOf (val_main_v26 (F := Ideal) x0 x1 x2 x15) r) (rowOf x0 r) (rowOf (val_main_v65 (F := Ideal) x13) r) (val_main_v27 (F := Ideal) x3) (val_main_v32 (F := Ideal) x4) (val_main_v29 (F := Ideal) x5) (val_main_v34 (F := Ideal) x6) (val_main_v67 (F := Ideal) x7) (val_main_v72 (F := Ideal) x8) (val_main_v69 (F := Ideal) x9) (val_main_v75 (F := Ideal) x10)) q := by
  have e : idx_main_v81 (ix2 r q) = ix2 r (⟨192 + q.val, by omega⟩ : Fin 256) :=
    funext fun a => Fin.ext (by match a with | ⟨0, _⟩ => rfl | ⟨1, _⟩ => rfl)
  rw [val_main_v81_apply, e, gates_apply]
  rfl

/-- The cell state c₁ = σ(g₁)·cp + σ(g₀)·tanh(g₂). -/
theorem c1_apply (r : Fin 100000) (q : Fin 64) :
    val_main_v97 (F := Ideal) x0 x1 x2 x3 x4 x5 x6 x7 x8 x9 x10 x13 x14 x15 (ix2 r q) = Spec.c1 (rowOf (val_main_v26 (F := Ideal) x0 x1 x2 x15) r) (rowOf x0 r) (rowOf (val_main_v65 (F := Ideal) x13) r) (rowOf (val_main_v66 (F := Ideal) x14) r) (val_main_v27 (F := Ideal) x3) (val_main_v32 (F := Ideal) x4) (val_main_v29 (F := Ideal) x5) (val_main_v34 (F := Ideal) x6) (val_main_v67 (F := Ideal) x7) (val_main_v72 (F := Ideal) x8) (val_main_v69 (F := Ideal) x9) (val_main_v75 (F := Ideal) x10) q := by
  rewrite [val_main_v97_apply, val_main_v88_apply, val_main_v87_apply, val_main_v86_apply, val_main_cst_10_apply, val_main_v85_apply, val_main_v84_apply, val_main_cst_9_apply, val_main_v83_apply, val_main_v82_apply, val_main_v96_apply, val_main_v94_apply, val_main_v93_apply, val_main_cst_12_apply, val_main_v92_apply, val_main_v91_apply, val_main_cst_11_apply, val_main_v90_apply, val_main_v89_apply, val_main_v95_apply, gates_input, gates_forget, gates_cell]
  unfold Spec.c1 Spec.sig
  simp only [Ideal.addf_def, Ideal.subf_def, Ideal.mulf_def, Ideal.hostDivf_def, Ideal.hostNegf_def, Ideal.negf_def, Ideal.hostUnary_exp_def, Ideal.hostUnary_tanh_def, Ideal.maximumf_def, Ideal.ofBits_def, rowOf_apply]

/-- The hidden state h₁ = σ(g₃)·tanh(c₁). -/
theorem h1_apply (r : Fin 100000) (q : Fin 64) :
    val_main_v105 (F := Ideal) x0 x1 x2 x3 x4 x5 x6 x7 x8 x9 x10 x13 x14 x15 (ix2 r q) = Spec.h1 (rowOf (val_main_v26 (F := Ideal) x0 x1 x2 x15) r) (rowOf x0 r) (rowOf (val_main_v65 (F := Ideal) x13) r) (rowOf (val_main_v66 (F := Ideal) x14) r) (val_main_v27 (F := Ideal) x3) (val_main_v32 (F := Ideal) x4) (val_main_v29 (F := Ideal) x5) (val_main_v34 (F := Ideal) x6) (val_main_v67 (F := Ideal) x7) (val_main_v72 (F := Ideal) x8) (val_main_v69 (F := Ideal) x9) (val_main_v75 (F := Ideal) x10) q := by
  rewrite [val_main_v105_apply, val_main_v103_apply, val_main_v102_apply, val_main_cst_14_apply, val_main_v101_apply, val_main_v100_apply, val_main_cst_13_apply, val_main_v99_apply, val_main_v98_apply, val_main_v104_apply, gates_output, c1_apply]
  unfold Spec.h1 Spec.sig
  simp only [Ideal.addf_def, Ideal.subf_def, Ideal.mulf_def, Ideal.hostDivf_def, Ideal.hostNegf_def, Ideal.negf_def, Ideal.hostUnary_exp_def, Ideal.hostUnary_tanh_def, Ideal.maximumf_def, Ideal.ofBits_def]

/-- The output head: relu(h₁)·LinW + linb. -/
theorem out_apply (r : Fin 100000) (j : Fin 12) :
    val_main_v111 (F := Ideal) x0 x1 x2 x3 x4 x5 x6 x7 x8 x9 x10 x11 x12 x13 x14 x15 (ix2 r j) = Spec.out (rowOf (val_main_v26 (F := Ideal) x0 x1 x2 x15) r) (rowOf x0 r) (rowOf (val_main_v65 (F := Ideal) x13) r) (rowOf (val_main_v66 (F := Ideal) x14) r) (val_main_v27 (F := Ideal) x3) (val_main_v32 (F := Ideal) x4) (val_main_v29 (F := Ideal) x5) (val_main_v34 (F := Ideal) x6) (val_main_v67 (F := Ideal) x7) (val_main_v72 (F := Ideal) x8) (val_main_v69 (F := Ideal) x9) (val_main_v75 (F := Ideal) x10) (val_main_v107 (F := Ideal) x11) (val_main_v109 (F := Ideal) x12) j := by
  rewrite [val_main_v111_apply, val_main_v108_apply, val_main_v110_apply, idx110]
  unfold Spec.out
  simp only [lidx108, ridx108, Ideal.addf_def]
  refine congrArg₂ _ (Finset.sum_congr rfl fun k _ => congrArg₂ _ ?_ rfl) rfl
  rewrite [val_main_v106_apply, val_main_call0_v0_apply, val_main_call0_cst_apply, h1_apply, Ideal.maximumf_def, Ideal.ofBits_def]
  exact rfl

/-! ## The three results as whole arrays -/

/-- The reference's cell state is the specification's, node by node. -/
theorem ref_c1 : val_main_v97 (F := Ideal) x0 x1 x2 x3 x4 x5 x6 x7 x8 x9 x10 x13 x14 x15
      = C1S (val_main_v26 (F := Ideal) x0 x1 x2 x15) x0 (val_main_v65 (F := Ideal) x13) (val_main_v66 (F := Ideal) x14) (val_main_v27 (F := Ideal) x3) (val_main_v32 (F := Ideal) x4)
          (val_main_v29 (F := Ideal) x5) (val_main_v34 (F := Ideal) x6) (val_main_v67 (F := Ideal) x7) (val_main_v72 (F := Ideal) x8) (val_main_v69 (F := Ideal) x9) (val_main_v75 (F := Ideal) x10) := by
  funext i
  obtain ⟨r, q, rfl⟩ : ∃ (r : Fin 100000) (q : Fin 64), i = ix2 r q := ⟨i 0, i 1, eq_ix2 i⟩
  exact c1_apply x0 x1 x2 x3 x4 x5 x6 x7 x8 x9 x10 x13 x14 x15 r q

/-- The reference's hidden state is the specification's. -/
theorem ref_h1 : val_main_v105 (F := Ideal) x0 x1 x2 x3 x4 x5 x6 x7 x8 x9 x10 x13 x14 x15
      = H1S (val_main_v26 (F := Ideal) x0 x1 x2 x15) x0 (val_main_v65 (F := Ideal) x13) (val_main_v66 (F := Ideal) x14) (val_main_v27 (F := Ideal) x3) (val_main_v32 (F := Ideal) x4)
          (val_main_v29 (F := Ideal) x5) (val_main_v34 (F := Ideal) x6) (val_main_v67 (F := Ideal) x7) (val_main_v72 (F := Ideal) x8) (val_main_v69 (F := Ideal) x9) (val_main_v75 (F := Ideal) x10) := by
  funext i
  obtain ⟨r, q, rfl⟩ : ∃ (r : Fin 100000) (q : Fin 64), i = ix2 r q := ⟨i 0, i 1, eq_ix2 i⟩
  exact h1_apply x0 x1 x2 x3 x4 x5 x6 x7 x8 x9 x10 x13 x14 x15 r q

/-- The reference's output is the specification's. -/
theorem ref_out : val_main_v111 (F := Ideal) x0 x1 x2 x3 x4 x5 x6 x7 x8 x9 x10 x11 x12 x13 x14 x15
      = OutS (val_main_v26 (F := Ideal) x0 x1 x2 x15) x0 (val_main_v65 (F := Ideal) x13) (val_main_v66 (F := Ideal) x14) (val_main_v27 (F := Ideal) x3) (val_main_v32 (F := Ideal) x4)
          (val_main_v29 (F := Ideal) x5) (val_main_v34 (F := Ideal) x6) (val_main_v67 (F := Ideal) x7) (val_main_v72 (F := Ideal) x8) (val_main_v69 (F := Ideal) x9) (val_main_v75 (F := Ideal) x10)
          (val_main_v107 (F := Ideal) x11) (val_main_v109 (F := Ideal) x12) := by
  funext i
  obtain ⟨r, j, rfl⟩ : ∃ (r : Fin 100000) (j : Fin 12), i = ix2 r j := ⟨i 0, i 1, eq_ix2 i⟩
  exact out_apply x0 x1 x2 x3 x4 x5 x6 x7 x8 x9 x10 x11 x12 x13 x14 x15 r j

end Cert.ReferenceIdeal.RefValue

end
-- ==== Proof.RefMid.lean ====
/-
  The reference program's prepared arrays in the kernel program's spelling: its node projection is the plain product,
  its aggregated messages are the shared edge stretch of that product, its transposed weights and reshaped state are the
  kernel program's, and a bias given a leading unit axis by a broadcast is the same bias given it by a reshape.
-/
import proofs.«162048_j1778116460895_1_alg».proof.Proof.RefGen
import proofs.«162048_j1778116460895_1_alg».proof.Proof.Spec
import proofs.«162048_j1778116460895_1_alg».proof.Proof.Mid
import Idealize.ShloMosaic.Lib.Pipeline.Value
import Idealize.ShloMosaic.Lib.ValueLayout

noncomputable section

open scoped BigOperators
open Idealize.ShloMosaic Idealize.ShloMosaic.ValueIdx

namespace Cert.ReferenceIdeal.RefBridge

open Cert.ReferenceIdeal Cert.ReferenceIdeal.Read Cert.Spec
open Cert.KernelIdeal.Facts₀ Cert.KernelIdeal.Facts

variable (x0 : (⟨S100000x64, .f32⟩ : BufTy).Contents (Elt Ideal)) (x1 : (⟨S1600000, .f32⟩ : BufTy).Contents (Elt Ideal)) (x2 : (⟨S64x64, .f32⟩ : BufTy).Contents (Elt Ideal))
  (x3 x4 : (⟨S192x64, .f32⟩ : BufTy).Contents (Elt Ideal)) (x5 x6 : (⟨S192, .f32⟩ : BufTy).Contents (Elt Ideal)) (x7 x8 : (⟨S256x64, .f32⟩ : BufTy).Contents (Elt Ideal)) (x9 x10 : (⟨S256, .f32⟩ : BufTy).Contents (Elt Ideal))
  (x11 : (⟨S12x64, .f32⟩ : BufTy).Contents (Elt Ideal)) (x12 : (⟨S12, .f32⟩ : BufTy).Contents (Elt Ideal)) (x13 x14 : (⟨S1x100000x64, .f32⟩ : BufTy).Contents (Elt Ideal)) (x15 : (⟨S2x1600000, .i32⟩ : BufTy).Contents (Elt Ideal))

/-- The reference's node projection is the plain product. -/
theorem ref_conv : val_main_v4 (F := Ideal) x0 x2 = convS x0 x2 := by
  funext i
  rw [val_main_v4_apply]
  unfold Spec.convS
  refine Finset.sum_congr rfl fun k _ => ?_
  have el : lidx_main_v4 i k = ix2 (i 0) k := funext fun a => Fin.ext (by
    match a with
    | ⟨0, _⟩ => rfl
    | ⟨1, _⟩ => rfl)
  have er : ridx_main_v4 i k = ix2 k (i 1) := funext fun a => Fin.ext (by
    match a with
    | ⟨0, _⟩ => rfl
    | ⟨1, _⟩ => rfl)
  rw [el, er]
  rfl

/-- The reference's aggregated messages are the shared edge stretch of its projection. -/
theorem ref_agg : val_main_v26 (F := Ideal) x0 x1 x2 x15 = Cert.KernelIdeal.Mid.mid (val_main_v4 (F := Ideal) x0 x2) x1 x15 := by
  unfold val_main_v26 val_main_v17 val_main_v25 val_main_v24 val_main_v23 val_main_v21 val_main_v22 val_main_v20 val_main_v19
    val_main_v18 val_main_v16 val_main_v15 val_main_v14 val_main_v11 val_main_v13 val_main_v12 val_main_v10 val_main_v9
    val_main_v8 val_main_v7 val_main_v6 val_main_v5 val_main_v3 val_main_v2 val_main_v1 val_main_v0 val_main_c val_main_c_0
    val_main_cst val_main_cst_1 val_main_cst_2 val_main_cst_3
  unfold Cert.KernelIdeal.Mid.mid Cert.KernelIdeal.Mid.meanBy Cert.KernelIdeal.Mid.srcIdx Cert.KernelIdeal.Mid.srcRow
    Cert.KernelIdeal.Mid.dstRow
  rfl

/-! The two state arrays with their leading unit axis dropped (a reshape) and the five transposed weight matrices: each is
    one layout operation, the same in both programs. -/

theorem ref_v65 : val_main_v65 (F := Ideal) x13 = shapeCast _ x13 shapeCasts_S1x100000x64_S100000x64 := by
  unfold val_main_v65; rfl
theorem ref_v66 : val_main_v66 (F := Ideal) x14 = shapeCast _ x14 shapeCasts_S1x100000x64_S100000x64 := by
  unfold val_main_v66; rfl
theorem ref_v27 : val_main_v27 (F := Ideal) x3 = transpose Cert.KernelIdeal.S64x192 [1, 0] x3 transposes_S192x64_S64x192_1_0 := by
  unfold val_main_v27; rfl
theorem ref_v32 : val_main_v32 (F := Ideal) x4 = transpose Cert.KernelIdeal.S64x192 [1, 0] x4 transposes_S192x64_S64x192_1_0 := by
  unfold val_main_v32; rfl
theorem ref_v67 : val_main_v67 (F := Ideal) x7 = transpose Cert.KernelIdeal.S64x256 [1, 0] x7 transposes_S256x64_S64x256_1_0 := by
  unfold val_main_v67; rfl
theorem ref_v72 : val_main_v72 (F := Ideal) x8 = transpose Cert.KernelIdeal.S64x256 [1, 0] x8 transposes_S256x64_S64x256_1_0 := by
  unfold val_main_v72; rfl
theorem ref_v107 : val_main_v107 (F := Ideal) x11 = transpose Cert.KernelIdeal.S64x12 [1, 0] x11 transposes_S12x64_S64x12_1_0 := by
  unfold val_main_v107; rfl
/-! A bias [n] read as [1, n], five times: the broadcast along a new leading unit axis and the reshape both read the flat
    bias at the column, since the row coordinate is 0 and contributes nothing to the row-major position. -/

theorem ref_v29 : val_main_v29 (F := Ideal) x5 = shapeCast _ x5 shapeCasts_S192_S1x192 := by
  funext i
  rw [val_main_v29_apply]
  refine (shapeCast_apply x5 shapeCasts_S192_S1x192 i (idx_main_v29 i) ?_).symm
  rewrite [Shape.rowMajor_val_one, Shape.rowMajor_val_two]
  have h0 : (i 0).val < 1 := (i 0).isLt
  show (i 1).val = (i 0).val * 192 + (i 1).val
  omega
theorem ref_v34 : val_main_v34 (F := Ideal) x6 = shapeCast _ x6 shapeCasts_S192_S1x192 := by
  funext i
  rw [val_main_v34_apply]
  refine (shapeCast_apply x6 shapeCasts_S192_S1x192 i (idx_main_v34 i) ?_).symm
  rewrite [Shape.rowMajor_val_one, Shape.rowMajor_val_two]
  have h0 : (i 0).val < 1 := (i 0).isLt
  show (i 1).val = (i 0).val * 192 + (i 1).val
  omega
theorem ref_v69 : val_main_v69 (F := Ideal) x9 = shapeCast _ x9 shapeCasts_S256_S1x256 := by
  funext i
  rw [val_main_v69_apply]
  refine (shapeCast_apply x9 shapeCasts_S256_S1x256 i (idx_main_v69 i) ?_).symm
  rewrite [Shape.rowMajor_val_one, Shape.rowMajor_val_two]
  have h0 : (i 0).val < 1 := (i 0).isLt
  show (i 1).val = (i 0).val * 256 + (i 1).val
  omega
theorem ref_v75 : val_main_v75 (F := Ideal) x10 = shapeCast _ x10 shapeCasts_S256_S1x256 := by
  funext i
  rw [val_main_v75_apply]
  refine (shapeCast_apply x10 shapeCasts_S256_S1x256 i (idx_main_v75 i) ?_).symm
  rewrite [Shape.rowMajor_val_one, Shape.rowMajor_val_two]
  have h0 : (i 0).val < 1 := (i 0).isLt
  show (i 1).val = (i 0).val * 256 + (i 1).val
  omega
theorem ref_v109 : val_main_v109 (F := Ideal) x12 = shapeCast _ x12 shapeCasts_S12_S1x12 := by
  funext i
  rw [val_main_v109_apply]
  refine (shapeCast_apply x12 shapeCasts_S12_S1x12 i (idx_main_v109 i) ?_).symm
  rewrite [Shape.rowMajor_val_one, Shape.rowMajor_val_two]
  have h0 : (i 0).val < 1 := (i 0).isLt
  show (i 1).val = (i 0).val * 12 + (i 1).val
  omega

/-- The two programs' last broadcast, a leading unit axis on a [nodes, 64] array, is one operation. -/
theorem ref_lead (y : (⟨S100000x64, .f32⟩ : BufTy).Contents (Elt Ideal)) :
    broadcastInDim Cert.ReferenceIdeal.S1x100000x64 ![1, 2] Cert.ReferenceIdeal.Facts₀.bcast_S100000x64_S1x100000x64_1_2 y
      = broadcastInDim Cert.KernelIdeal.S1x100000x64 ![1, 2] Cert.KernelIdeal.Facts₀.bcast_S100000x64_S1x100000x64_1_2 y := by
  rfl

end Cert.ReferenceIdeal.RefBridge

end
-- ==== Proof.RefResults.lean ====
/-
  The reference program's three results as the same functions of the arguments the kernel program's run is stated with:
  its cell functions of its own prepared arrays, each prepared array rewritten to the shared spelling.
-/
import proofs.«162048_j1778116460895_1_alg».proof.Proof.RefCell
import proofs.«162048_j1778116460895_1_alg».proof.Proof.RefMid
import proofs.«162048_j1778116460895_1_alg».proof.Proof.Results

noncomputable section

open Idealize.ShloMosaic

namespace Cert.ReferenceIdeal.RefResults

open Cert.ReferenceIdeal Cert.ReferenceIdeal.Read Cert.Results

variable (x0 : (⟨S100000x64, .f32⟩ : BufTy).Contents (Elt Ideal)) (x1 : (⟨S1600000, .f32⟩ : BufTy).Contents (Elt Ideal)) (x2 : (⟨S64x64, .f32⟩ : BufTy).Contents (Elt Ideal))
  (x3 x4 : (⟨S192x64, .f32⟩ : BufTy).Contents (Elt Ideal)) (x5 x6 : (⟨S192, .f32⟩ : BufTy).Contents (Elt Ideal)) (x7 x8 : (⟨S256x64, .f32⟩ : BufTy).Contents (Elt Ideal)) (x9 x10 : (⟨S256, .f32⟩ : BufTy).Contents (Elt Ideal))
  (x11 : (⟨S12x64, .f32⟩ : BufTy).Contents (Elt Ideal)) (x12 : (⟨S12, .f32⟩ : BufTy).Contents (Elt Ideal)) (x13 x14 : (⟨S1x100000x64, .f32⟩ : BufTy).Contents (Elt Ideal)) (x15 : (⟨S2x1600000, .i32⟩ : BufTy).Contents (Elt Ideal))

/-- The reference's aggregated messages are the shared edge stretch of the plain projection. -/
theorem agg_eq : val_main_v26 (F := Ideal) x0 x1 x2 x15 = Cert.KernelIdeal.Mid.mid (Cert.Spec.convS x0 x2) x1 x15 :=
  (RefBridge.ref_agg x0 x1 x2 x15).trans
    (congrArg (fun M : (⟨S100000x64, .f32⟩ : BufTy).Contents (Elt Ideal) => Cert.KernelIdeal.Mid.mid M x1 x15) (RefBridge.ref_conv x0 x2))

/-- The reference's output is every node's output head of the arguments. -/
theorem out_eq : val_main_v111 (F := Ideal) x0 x1 x2 x3 x4 x5 x6 x7 x8 x9 x10 x11 x12 x13 x14 x15 = outOf x0 x1 x2 x3 x4 x5 x6 x7 x8 x9 x10 x11 x12 x13 x14 x15 :=
  (RefValue.ref_out x0 x1 x2 x3 x4 x5 x6 x7 x8 x9 x10 x11 x12 x13 x14 x15).trans
    (outOf_intro x0 x1 x2 x3 x4 x5 x6 x7 x8 x9 x10 x11 x12 x13 x14 x15
      (agg_eq x0 x1 x2 x15) rfl (RefBridge.ref_v65 x13) (RefBridge.ref_v66 x14) (RefBridge.ref_v27 x3) (RefBridge.ref_v32 x4)
      (RefBridge.ref_v29 x5) (RefBridge.ref_v34 x6) (RefBridge.ref_v67 x7) (RefBridge.ref_v72 x8) (RefBridge.ref_v69 x9) (RefBridge.ref_v75 x10)
      (RefBridge.ref_v107 x11) (RefBridge.ref_v109 x12))

/-- The reference's second result is every node's hidden state with its leading unit axis. -/
theorem h1_eq : val_main_v112 (F := Ideal) x0 x1 x2 x3 x4 x5 x6 x7 x8 x9 x10 x13 x14 x15 = lead (h1Of x0 x1 x2 x3 x4 x5 x6 x7 x8 x9 x10 x13 x14 x15) := by
  unfold val_main_v112
  exact (RefBridge.ref_lead _).trans (congrArg lead ((RefValue.ref_h1 x0 x1 x2 x3 x4 x5 x6 x7 x8 x9 x10 x13 x14 x15).trans
    (h1Of_intro x0 x1 x2 x3 x4 x5 x6 x7 x8 x9 x10 x13 x14 x15
      (agg_eq x0 x1 x2 x15) rfl (RefBridge.ref_v65 x13) (RefBridge.ref_v66 x14) (RefBridge.ref_v27 x3) (RefBridge.ref_v32 x4)
      (RefBridge.ref_v29 x5) (RefBridge.ref_v34 x6) (RefBridge.ref_v67 x7) (RefBridge.ref_v72 x8) (RefBridge.ref_v69 x9) (RefBridge.ref_v75 x10))))

/-- The reference's third result is every node's cell state with its leading unit axis. -/
theorem c1_eq : val_main_v113 (F := Ideal) x0 x1 x2 x3 x4 x5 x6 x7 x8 x9 x10 x13 x14 x15 = lead (c1Of x0 x1 x2 x3 x4 x5 x6 x7 x8 x9 x10 x13 x14 x15) := by
  unfold val_main_v113
  exact (RefBridge.ref_lead _).trans (congrArg lead ((RefValue.ref_c1 x0 x1 x2 x3 x4 x5 x6 x7 x8 x9 x10 x13 x14 x15).trans
    (c1Of_intro x0 x1 x2 x3 x4 x5 x6 x7 x8 x9 x10 x13 x14 x15
      (agg_eq x0 x1 x2 x15) rfl (RefBridge.ref_v65 x13) (RefBridge.ref_v66 x14) (RefBridge.ref_v27 x3) (RefBridge.ref_v32 x4)
      (RefBridge.ref_v29 x5) (RefBridge.ref_v34 x6) (RefBridge.ref_v67 x7) (RefBridge.ref_v72 x8) (RefBridge.ref_v69 x9) (RefBridge.ref_v75 x10))))

end Cert.ReferenceIdeal.RefResults

end
-- ==== Proof.lean ====
/-
  The certificate of one graph step: a node projection m = x·W, the mean over each node's incoming edges of the
  projected source rows weighted by the edge, then on every node a GRU cell (aggregated message against the node's
  feature) feeding one LSTM step from the previous state (h0, c0), and a relu + linear head on the new hidden state. The
  kernel program does the projection and the per-node update in two blocked regions of 50 blocks of 2000 nodes, in
  bfloat16 matrix products accumulated in binary32, with the edge stretch between them on the host; the reference does
  everything on whole arrays.

  Over the extended reals the two are one function. A change of float format is the identity, a matrix product into a zero
  accumulator and the host's dot product are the same finite sum, the one logistic operation is the quotient 1 / (1 + e^(−t))
  the reference spells, and both programs apply the edge stretch — gather by source, weight, scatter-add by destination,
  divide by max(count, 1) — as the same operations to the same projected features, so it is carried as one function and
  never opened. What remains is per node: both compute the specification's cell functions (Proof/Spec.lean) of the node's
  four rows, the kernel block by block (Proof/KerCell.lean, Proof/KerBlocks.lean), the reference index by index
  (Proof/RefCell.lean); no law beyond reindexing a finite sum is used, so the precondition is never opened.
  The three frames are the generated ones (the reference's is its run with the results dropped); the ideal pass rewrote
  nothing, so `preserves` is `True`.
-/
import proofs.«162048_j1778116460895_1_alg».proof.Defs
import proofs.«162048_j1778116460895_1_alg».proof.Proof.Gen.Kernel
import proofs.«162048_j1778116460895_1_alg».proof.Proof.Gen.Kernel.Skeleton
import proofs.«162048_j1778116460895_1_alg».proof.Proof.Gen.Kernel.Launch
import proofs.«162048_j1778116460895_1_alg».proof.Proof.Gen.Kernel.Points
import proofs.«162048_j1778116460895_1_alg».proof.Proof.Gen.Kernel.Frame
import proofs.«162048_j1778116460895_1_alg».proof.Proof.Gen.KernelIdeal
import proofs.«162048_j1778116460895_1_alg».proof.Proof.Gen.KernelIdeal.Skeleton
import proofs.«162048_j1778116460895_1_alg».proof.Proof.Gen.KernelIdeal.Launch
import proofs.«162048_j1778116460895_1_alg».proof.Proof.Gen.KernelIdeal.Points
import proofs.«162048_j1778116460895_1_alg».proof.Proof.Gen.KernelIdeal.Frame
import proofs.«162048_j1778116460895_1_alg».proof.Proof.Gen.ReferenceIdeal
import proofs.«162048_j1778116460895_1_alg».proof.Proof.Gen.Pre_finite_inputs
import proofs.«162048_j1778116460895_1_alg».proof.Proof.KerValue
import proofs.«162048_j1778116460895_1_alg».proof.Proof.RefResults
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From memories that agree on the sixteen arguments both programs end with every node's output head, hidden state and
    cell state of those arguments: the kernel program's run and the reference's run are stated with the same three terms. -/
theorem algebraic : Cert.algebraic_KernelIdeal_ReferenceIdeal := by
  intro m ρ m' ρ' _ hagree
  refine ⟨_, _, _, Cert.KernelIdeal.RunValue.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15⟩ := hagree c
  refine ⟨(h c).1.trans ?_, (h c).2.1.trans ?_, (h c).2.2.1.trans ?_, (h c).2.2.2⟩
  · rw [Cert.ReferenceIdeal.Read.val_main_v111_eq, Cert.ReferenceIdeal.RefResults.out_eq, a0, a1, a2, a3, a4, a5, a6, a7, a8, a9, a10, a11, a12, a13, a14, a15]
  · rw [Cert.ReferenceIdeal.Read.val_main_v112_eq, Cert.ReferenceIdeal.RefResults.h1_eq, a0, a1, a2, a3, a4, a5, a6, a7, a8, a9, a10, a13, a14, a15]
  · rw [Cert.ReferenceIdeal.Read.val_main_v113_eq, Cert.ReferenceIdeal.RefResults.c1_eq, a0, a1, a2, a3, a4, a5, a6, a7, a8, a9, a10, a13, a14, a15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
